-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.truncf_extf.Statement Cert.KernelIdeal.S1024x1024 .f32 .bf16
  ∧ IdealRules.truncf_extf.Statement Cert.KernelIdeal.S256x1024 .f32 .bf16
  ∧ IdealRules.named_const.Statement Cert.KernelIdeal.κ "inv_scale" .f32 0x3C3504F3#32 ((131072 / 11863283 : ℝ) : EReal)
  ∧ IdealRules.truncf_extf.Statement Cert.KernelIdeal.S1024x256 .f32 .bf16
  ∧ IdealRules.truncf_extf.Statement Cert.KernelIdeal.S256x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x8192 : Shape := ⟨2, ![8192, 8192]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg3 : FVec F S8192x8192 .f32) (main_arg11 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_cst_22 : FVec F S_ .f32 := constant S_ .f32 0x00000000#32
  let main_v59 : FVec F S8192x8192 .f32 := broadcastInDim S8192x8192 ![] bcast_S_S8192x8192 main_cst_22
  let main_v60 : IVec S8192x8192 1 := cmpf .oeq main_arg3 main_v59
  let main_cst_23 : FVec F S_ .f32 := constant S_ .f32 0x3F800000#32
  let main_v61 : FVec F S8192x8192 .f32 := broadcastInDim S8192x8192 ![] bcast_S_S8192x8192 main_cst_23
  let main_v62 : IVec S8192x8192 1 := cmpf .oeq main_arg3 main_v61
  let main_v63 : IVec S8192x8192 1 := ori main_v60 main_v62
  let main_c_24 : IVec S_ 1 := constantI S_ 1 1#1
  let main_v64 : IVec S_ 1 := (fun x v => Host.reduce IntOp.andi x v reducesTo_S8192x8192_S_d0_1 h_S_) main_v63 main_c_24
  let main_v65 : IVec S_ 1 := andi main_v58 main_v64
  main_v65

def fn_part2 {F : FTy → Type} [FloatOps F] (main_arg3 : FVec F S8192x8192 .f32) (main_arg7 : FVec F S1024 .f32) (main_arg8 : FVec F S1024x1024 .f32) (main_arg9 : FVec F S1024 .f32) (main_arg10 : FVec F S1024x1024 .f32) (main_arg11 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg3 main_arg11 main_v48 main_v49 main_v50

def fn_part1 {F : FTy → Type} [FloatOps F] (main_arg3 : FVec F S8192x8192 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_v13 : IVec S_ 1) (main_v16 : IVec S8192x8192 1) : IVec S_ 1 :=
  let main_c_5 : IVec S_ 1 := constantI S_ 1 1#1
  let main_v17 : IVec S_ 1 := (fun x v => Host.reduce IntOp.andi x v reducesTo_S8192x8192_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg3 main_arg7 main_arg8 main_arg9 main_arg10 main_arg11 main_v33

def fn {F : FTy → Type} [FloatOps F] (main_arg0 : FVec F S8192x1024 .f32) (main_arg1 : FVec F S8192x1024 .f32) (main_arg2 : FVec F S8192x1024 .f32) (main_arg3 : FVec F S8192x8192 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x8192 .f32 := Host.absf main_arg3
  let main_cst_4 : FVec F S_ .f32 := constant S_ .f32 0x7F800000#32
  let main_v15 : FVec F S8192x8192 .f32 := broadcastInDim S8192x8192 ![] bcast_S_S8192x8192 main_cst_4
  let main_v16 : IVec S8192x8192 1 := cmpf .olt main_v14 main_v15
  fn_part1 (F := F) main_arg3 main_arg4 main_arg5 main_arg6 main_arg7 main_arg8 main_arg9 main_arg10 main_arg11 main_v13 main_v16
-- ==== Kernel.lean ====
abbrev S8192x1024 : Shape := ⟨2, ![8192, 1024]⟩
abbrev S8192x8192 : Shape := ⟨2, ![8192, 8192]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S1024x256 : Shape := ⟨2, ![1024, 256]⟩
abbrev S1024x1 : Shape := ⟨2, ![1024, 1]⟩

abbrev nBuf : Space → Nat
  | .hbm => 30
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x8192, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S1024x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1024x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1024x1024, .bf16⟩
  | .hbm, ⟨28, _⟩ => ⟨S1x1024, .f32⟩
  | .hbm, ⟨29, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x256, .f32⟩
  | .local _ .vmem, ⟨7, _⟩ => ⟨S1024x256, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1, .f32⟩
  | .local _ .vmem, ⟨13, _⟩ => ⟨S1024x1, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 32], ![false, false]⟩

def k0_cond2 (i : grid0.Coords) : BitVec 1 :=
  let arg1 : BitVec 32 := BitVec.ofNat 32 (i 1).val
  let c31_i32 : BitVec 32 := 31#32
  let v69 : BitVec 1 := Scalar.cmpi .eq arg1 c31_i32
  let v70 : BitVec 32 := Scalar.extui v69
  let c0_i32_33 : BitVec 32 := 0#32
  let v71 : BitVec 1 := Scalar.cmpi .ne v70 c0_i32_33
  v71

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bitsLt_bf16_f32 : FTy.bits .bf16 < FTy.bits .f32
  shapeCasts_S1024_S1x1024 : S1024.ShapeCasts S1x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S8192x1024_S1024x1024_S8192x1024_1_0_0_1_n_n_wf : DotDims.WF S8192x1024 S1024x1024 S8192x1024 [1] [0] [0] [1] [] []
  dot_S1024x1024_S256x1024_S1024x256_1_1_0_0_n_n_wf : DotDims.WF S1024x1024 S256x1024 S1024x256 [1] [1] [0] [0] [] []
  dot_S1024x256_S256x1024_S1024x1024_1_0_0_1_n_n_wf : DotDims.WF S1024x256 S256x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S8192x8192.size a
  hwx0_3 : ∀ i : grid0.Coords, EltTy.bits .f32 = 32 ∨ (Rect.block (s := S8192x8192) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x1024.size a
  hwx0_6 : ∀ i : grid0.Coords, EltTy.bits .f32 = 32 ∨ (Rect.block (s := S8192x1024) S1024x1024.size (cc0_transform_6 i) (hinb0_6 i)).WholeWords (EltTy.packing .f32)

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192x8192 : Shape := ⟨2, ![8192, 8192]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x8192, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x1024, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S1024x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1024x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .i1⟩
  | .hbm, ⟨36, _⟩ => ⟨S_, .f32⟩
  | .hbm, ⟨37, _⟩ => ⟨S_, .f32⟩
  | .hbm, ⟨38, _⟩ => ⟨S8192x8192, .f32⟩
  | .hbm, ⟨39, _⟩ => ⟨S8192x8192, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x8192, .f32⟩
  | .hbm, ⟨53, _⟩ => ⟨S8192x8192, .f32⟩
  | .hbm, ⟨54, _⟩ => ⟨S8192x1024, .f32⟩
  | .hbm, ⟨55, _⟩ => ⟨S1024x1024, .f32⟩
  | .hbm, ⟨56, _⟩ => ⟨S8192x1024, .f32⟩
  | .hbm, ⟨57, _⟩ => ⟨S1x1024, .f32⟩
  | .hbm, ⟨58, _⟩ => ⟨S8192x1024, .f32⟩
  | .hbm, ⟨59, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_call0_v0 : Ref sig .tc := ⟨.hbm, 37, rfl⟩
abbrev main_call0_v1 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x1024_S8192x1024_1_0_0_1_n_n_wf : DotDims.WF S8192x1024 S1024x1024 S8192x1024 [1] [0] [0] [1] [] []
  dot_S8192x1024_S8192x1024_S8192x8192_1_1_0_0_n_n_wf : DotDims.WF S8192x1024 S8192x1024 S8192x8192 [1] [1] [0] [0] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S8192x1024_S8192x8192_1_1_0_0_n_n : DotDims S8192x1024 S8192x1024 S8192x8192 where
  lhsContracting := [1]
  rhsContracting := [1]
  lhsNonContracting := [0]
  rhsNonContracting := [0]
  lhsBatch := []
  rhsBatch := []
  wf := dot_S8192x1024_S8192x1024_S8192x8192_1_1_0_0_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.KernelPieces.lean ====
import proofs.«415173_j7224134992243_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! What each control case of the body leaves in the carried scratch and in the output tile, as the body's stored values
    of the point's blocks and of what the point before left: a middle point updates the running maximum, the
    normaliser and the accumulator; a row tile's first point first resets them and caches the query tile; its last
    point also writes the output tile from the updated accumulator and normaliser. -/

namespace Cert.KernelIdeal.Pieces

open Cert.KernelIdeal Cert.KernelIdeal.Gen

variable {F : FTy → Type} [FloatOps F] [Named F]

theorem hz : (![0, 0] : Fin 2 → Nat) = fun _ => 0 := funext fun a => by fin_cases a <;> rfl

/-! ## A middle point -/

theorem sB0 (c : Dev nD) (i : grid0.Coords) (arg2 : Memref sig .tc .vmem S1024x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x1024 .bf16) (harg13 : arg13.IsWhole) (hc0 : ¬cond0_0 i) (hc1 : ¬cond0_1 i)
    (x0 : Vec F S1024x1024 .f32) (x1 : Vec F S256x1024 .f32) (x2 : Vec F S256x1024 .f32) (x3 : Vec F S1024x256 .f32) (x4 : Vec F S1024x1024 .bf16) (x5 : Vec F S1x1024 .f32) (xs0 : Vec F S1024x1 .f32) (xs1 : Vec F S1024x1 .f32) (xs2 : Vec F S1024x1024 .f32) (xs3 : Vec F S1024x1024 .bf16) (xs4 : Vec F S1024x1024 .bf16) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay3 (k0_pay12 x1 xs3 xs4 x3 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_B
  dsimp only
  sl_unfold_words
  rw [View.canon_unit_zero hz]
  simp only [View.readAt_eq_ld, harg3.read_unread, harg12.read_unread, harg13.read_unread, harg5.read_unread, harg9.read_unread,
    View.ld_unit_zero (S := S256x1024) hz, View.ld_unit_zero (S := S1024x1024) hz, View.ld_unit_zero (S := S1024x256) hz, View.ld_unit_zero (S := S1024x1) hz]

theorem sB1 (c : Dev nD) (i : grid0.Coords) (arg2 : Memref sig .tc .vmem S1024x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x1024 .bf16) (harg13 : arg13.IsWhole) (hc0 : ¬cond0_0 i) (hc1 : ¬cond0_1 i)
    (x0 : Vec F S1024x1024 .f32) (x1 : Vec F S256x1024 .f32) (x2 : Vec F S256x1024 .f32) (x3 : Vec F S1024x256 .f32) (x4 : Vec F S1024x1024 .bf16) (x5 : Vec F S1x1024 .f32) (xs0 : Vec F S1024x1 .f32) (xs1 : Vec F S1024x1 .f32) (xs2 : Vec F S1024x1024 .f32) (xs3 : Vec F S1024x1024 .bf16) (xs4 : Vec F S1024x1024 .bf16) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay1 (k0_pay13 x1 xs3 xs4 x3 xs0) (k0_pay14 x1 xs3 xs4 x3 xs0) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_B
  dsimp only
  sl_unfold_words
  rw [View.canon_unit_zero hz]
  simp only [View.readAt_eq_ld, harg3.read_unread, harg12.read_unread, harg13.read_unread, harg5.read_unread, harg9.read_unread, harg10.read_unread,
    View.ld_unit_zero (S := S256x1024) hz, View.ld_unit_zero (S := S1024x1024) hz, View.ld_unit_zero (S := S1024x256) hz, View.ld_unit_zero (S := S1024x1) hz, View.ld_unit_zero (S := S1x1024) hz]

theorem sB2 (c : Dev nD) (i : grid0.Coords) (arg2 : Memref sig .tc .vmem S1024x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x1024 .bf16) (harg13 : arg13.IsWhole) (hc0 : ¬cond0_0 i) (hc1 : ¬cond0_1 i)
    (x0 : Vec F S1024x1024 .f32) (x1 : Vec F S256x1024 .f32) (x2 : Vec F S256x1024 .f32) (x3 : Vec F S1024x256 .f32) (x4 : Vec F S1024x1024 .bf16) (x5 : Vec F S1x1024 .f32) (xs0 : Vec F S1024x1 .f32) (xs1 : Vec F S1024x1 .f32) (xs2 : Vec F S1024x1024 .f32) (xs3 : Vec F S1024x1024 .bf16) (xs4 : Vec F S1024x1024 .bf16) :
    sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay2 (k0_pay13 x1 xs3 xs4 x3 xs0) (k0_pay14 x1 xs3 xs4 x3 xs0) x2 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_B
  dsimp only
  sl_unfold_words
  rw [View.canon_unit_zero hz]
  simp only [View.readAt_eq_ld, harg3.read_unread, harg12.read_unread, harg13.read_unread, harg5.read_unread, harg9.read_unread, harg4.read_unread, harg11.read_unread,
    View.ld_unit_zero (S := S256x1024) hz, View.ld_unit_zero (S := S1024x1024) hz, View.ld_unit_zero (S := S1024x256) hz, View.ld_unit_zero (S := S1024x1) hz, View.ld_unit_zero (S := S1x1024) hz]

theorem sB3 (c : Dev nD) (i : grid0.Coords) (arg2 : Memref sig .tc .vmem S1024x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x1024 .bf16) (harg13 : arg13.IsWhole) (hc0 : ¬cond0_0 i) (hc1 : ¬cond0_1 i)
    (x0 : Vec F S1024x1024 .f32) (x1 : Vec F S256x1024 .f32) (x2 : Vec F S256x1024 .f32) (x3 : Vec F S1024x256 .f32) (x4 : Vec F S1024x1024 .bf16) (x5 : Vec F S1x1024 .f32) (xs0 : Vec F S1024x1 .f32) (xs1 : Vec F S1024x1 .f32) (xs2 : Vec F S1024x1024 .f32) (xs3 : Vec F S1024x1024 .bf16) (xs4 : Vec F S1024x1024 .bf16) :
    sout0_B_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = xs3 := by
  rfl

theorem sB4 (c : Dev nD) (i : grid0.Coords) (arg2 : Memref sig .tc .vmem S1024x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x1024 .bf16) (harg13 : arg13.IsWhole) (hc0 : ¬cond0_0 i) (hc1 : ¬cond0_1 i)
    (x0 : Vec F S1024x1024 .f32) (x1 : Vec F S256x1024 .f32) (x2 : Vec F S256x1024 .f32) (x3 : Vec F S1024x256 .f32) (x4 : Vec F S1024x1024 .bf16) (x5 : Vec F S1x1024 .f32) (xs0 : Vec F S1024x1 .f32) (xs1 : Vec F S1024x1 .f32) (xs2 : Vec F S1024x1024 .f32) (xs3 : Vec F S1024x1024 .bf16) (xs4 : Vec F S1024x1024 .bf16) :
    sout0_B_4 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = xs4 := by
  rfl

/-! ## A row tile's last point -/

theorem sC0 (c : Dev nD) (i : grid0.Coords) (arg2 : Memref sig .tc .vmem S1024x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x1024 .bf16) (harg13 : arg13.IsWhole) (hc0 : ¬cond0_0 i) (hc1 : cond0_1 i)
    (x0 : Vec F S1024x1024 .f32) (x1 : Vec F S256x1024 .f32) (x2 : Vec F S256x1024 .f32) (x3 : Vec F S1024x256 .f32) (x4 : Vec F S1024x1024 .bf16) (x5 : Vec F S1x1024 .f32) (xs0 : Vec F S1024x1 .f32) (xs1 : Vec F S1024x1 .f32) (xs2 : Vec F S1024x1024 .f32) (xs3 : Vec F S1024x1024 .bf16) (xs4 : Vec F S1024x1024 .bf16) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay3 (k0_pay12 x1 xs3 xs4 x3 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_C
  dsimp only
  sl_unfold_words
  rw [View.canon_unit_zero hz]
  simp only [View.readAt_eq_ld, harg3.read_unread, harg12.read_unread, harg13.read_unread, harg5.read_unread, harg9.read_unread,
    View.ld_unit_zero (S := S256x1024) hz, View.ld_unit_zero (S := S1024x1024) hz, View.ld_unit_zero (S := S1024x256) hz, View.ld_unit_zero (S := S1024x1) hz, View.ld_unit_zero (S := S1x1024) hz]

theorem sC1 (c : Dev nD) (i : grid0.Coords) (arg2 : Memref sig .tc .vmem S1024x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x1024 .bf16) (harg13 : arg13.IsWhole) (hc0 : ¬cond0_0 i) (hc1 : cond0_1 i)
    (x0 : Vec F S1024x1024 .f32) (x1 : Vec F S256x1024 .f32) (x2 : Vec F S256x1024 .f32) (x3 : Vec F S1024x256 .f32) (x4 : Vec F S1024x1024 .bf16) (x5 : Vec F S1x1024 .f32) (xs0 : Vec F S1024x1 .f32) (xs1 : Vec F S1024x1 .f32) (xs2 : Vec F S1024x1024 .f32) (xs3 : Vec F S1024x1024 .bf16) (xs4 : Vec F S1024x1024 .bf16) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay1 (k0_pay13 x1 xs3 xs4 x3 xs0) (k0_pay14 x1 xs3 xs4 x3 xs0) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_C
  dsimp only
  sl_unfold_words
  rw [View.canon_unit_zero hz]
  simp only [View.readAt_eq_ld, harg3.read_unread, harg12.read_unread, harg13.read_unread, harg5.read_unread, harg9.read_unread, harg10.read_unread,
    View.ld_unit_zero (S := S256x1024) hz, View.ld_unit_zero (S := S1024x1024) hz, View.ld_unit_zero (S := S1024x256) hz, View.ld_unit_zero (S := S1024x1) hz, View.ld_unit_zero (S := S1x1024) hz]

theorem sC2 (c : Dev nD) (i : grid0.Coords) (arg2 : Memref sig .tc .vmem S1024x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x1024 .bf16) (harg13 : arg13.IsWhole) (hc0 : ¬cond0_0 i) (hc1 : cond0_1 i)
    (x0 : Vec F S1024x1024 .f32) (x1 : Vec F S256x1024 .f32) (x2 : Vec F S256x1024 .f32) (x3 : Vec F S1024x256 .f32) (x4 : Vec F S1024x1024 .bf16) (x5 : Vec F S1x1024 .f32) (xs0 : Vec F S1024x1 .f32) (xs1 : Vec F S1024x1 .f32) (xs2 : Vec F S1024x1024 .f32) (xs3 : Vec F S1024x1024 .bf16) (xs4 : Vec F S1024x1024 .bf16) :
    sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay2 (k0_pay13 x1 xs3 xs4 x3 xs0) (k0_pay14 x1 xs3 xs4 x3 xs0) x2 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_C
  dsimp only
  sl_unfold_words
  rw [View.canon_unit_zero hz]
  simp only [View.readAt_eq_ld, harg3.read_unread, harg12.read_unread, harg13.read_unread, harg5.read_unread, harg9.read_unread, harg4.read_unread, harg11.read_unread,
    View.ld_unit_zero (S := S256x1024) hz, View.ld_unit_zero (S := S1024x1024) hz, View.ld_unit_zero (S := S1024x256) hz, View.ld_unit_zero (S := S1024x1) hz, View.ld_unit_zero (S := S1x1024) hz]

theorem sC3 (c : Dev nD) (i : grid0.Coords) (arg2 : Memref sig .tc .vmem S1024x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x1024 .bf16) (harg13 : arg13.IsWhole) (hc0 : ¬cond0_0 i) (hc1 : cond0_1 i)
    (x0 : Vec F S1024x1024 .f32) (x1 : Vec F S256x1024 .f32) (x2 : Vec F S256x1024 .f32) (x3 : Vec F S1024x256 .f32) (x4 : Vec F S1024x1024 .bf16) (x5 : Vec F S1x1024 .f32) (xs0 : Vec F S1024x1 .f32) (xs1 : Vec F S1024x1 .f32) (xs2 : Vec F S1024x1024 .f32) (xs3 : Vec F S1024x1024 .bf16) (xs4 : Vec F S1024x1024 .bf16) :
    sout0_C_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = xs3 := by
  rfl

theorem sC4 (c : Dev nD) (i : grid0.Coords) (arg2 : Memref sig .tc .vmem S1024x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x1024 .bf16) (harg13 : arg13.IsWhole) (hc0 : ¬cond0_0 i) (hc1 : cond0_1 i)
    (x0 : Vec F S1024x1024 .f32) (x1 : Vec F S256x1024 .f32) (x2 : Vec F S256x1024 .f32) (x3 : Vec F S1024x256 .f32) (x4 : Vec F S1024x1024 .bf16) (x5 : Vec F S1x1024 .f32) (xs0 : Vec F S1024x1 .f32) (xs1 : Vec F S1024x1 .f32) (xs2 : Vec F S1024x1024 .f32) (xs3 : Vec F S1024x1024 .bf16) (xs4 : Vec F S1024x1024 .bf16) :
    sout0_C_4 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = xs4 := by
  rfl

theorem oC6 (c : Dev nD) (i : grid0.Coords) (arg2 : Memref sig .tc .vmem S1024x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x1024 .bf16) (harg13 : arg13.IsWhole) (hc0 : ¬cond0_0 i) (hc1 : cond0_1 i)
    (x0 : Vec F S1024x1024 .f32) (x1 : Vec F S256x1024 .f32) (x2 : Vec F S256x1024 .f32) (x3 : Vec F S1024x256 .f32) (x4 : Vec F S1024x1024 .bf16) (x5 : Vec F S1x1024 .f32) (xs0 : Vec F S1024x1 .f32) (xs1 : Vec F S1024x1 .f32) (xs2 : Vec F S1024x1024 .f32) (xs3 : Vec F S1024x1024 .bf16) (xs4 : Vec F S1024x1024 .bf16) :
    out0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4 = k0_pay4 (k0_pay2 (k0_pay13 x1 xs3 xs4 x3 xs0) (k0_pay14 x1 xs3 xs4 x3 xs0) x2 xs2) (k0_pay1 (k0_pay13 x1 xs3 xs4 x3 xs0) (k0_pay14 x1 xs3 xs4 x3 xs0) xs1) x4 x5 := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 xs4)]
  unfold kernelRun0_C
  dsimp only
  sl_unfold_words
  rw [View.canon_unit_zero hz]
  simp only [View.readAt_eq_ld, harg3.read_unread, harg12.read_unread, harg13.read_unread, harg5.read_unread, harg9.read_unread, harg4.read_unread, harg11.read_unread, harg10.read_unread, harg6.read_unread, harg7.read_unread,
    View.ld_unit_zero (S := S256x1024) hz, View.ld_unit_zero (S := S1024x1024) hz, View.ld_unit_zero (S := S1024x256) hz, View.ld_unit_zero (S := S1024x1) hz, View.ld_unit_zero (S := S1x1024) hz,
    View.readCov_unit_zero (S := S1024x1024) _ hz, View.readCov_unit_zero (S := S1024x1) _ hz]

/-! ## A row tile's first point -/

theorem sA3 (c : Dev nD) (i : grid0.Coords) (arg2 : Memref sig .tc .vmem S1024x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x1024 .bf16) (harg13 : arg13.IsWhole) (hc0 : cond0_0 i) (hc1 : ¬cond0_1 i)
    (x0 : Vec F S1024x1024 .f32) (x1 : Vec F S256x1024 .f32) (x2 : Vec F S256x1024 .f32) (x3 : Vec F S1024x256 .f32) (x4 : Vec F S1024x1024 .bf16) (x5 : Vec F S1x1024 .f32) :
    sout0_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay9 x0 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_unit_zero hz]
  simp only [View.readAt_eq_ld, harg2.read_unread,
    View.ld_unit_zero (S := S256x1024) hz, View.ld_unit_zero (S := S1024x1024) hz, View.ld_unit_zero (S := S1024x256) hz, View.ld_unit_zero (S := S1024x1) hz, View.ld_unit_zero (S := S1x1024) hz]

theorem sA4 (c : Dev nD) (i : grid0.Coords) (arg2 : Memref sig .tc .vmem S1024x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x1024 .bf16) (harg13 : arg13.IsWhole) (hc0 : cond0_0 i) (hc1 : ¬cond0_1 i)
    (x0 : Vec F S1024x1024 .f32) (x1 : Vec F S256x1024 .f32) (x2 : Vec F S256x1024 .f32) (x3 : Vec F S1024x256 .f32) (x4 : Vec F S1024x1024 .bf16) (x5 : Vec F S1x1024 .f32) :
    sout0_A_4 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay10 x0 := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_unit_zero hz]
  simp only [View.readAt_eq_ld, harg2.read_unread,
    View.ld_unit_zero (S := S256x1024) hz, View.ld_unit_zero (S := S1024x1024) hz, View.ld_unit_zero (S := S1024x256) hz, View.ld_unit_zero (S := S1024x1) hz, View.ld_unit_zero (S := S1x1024) hz]

theorem sA0 (c : Dev nD) (i : grid0.Coords) (arg2 : Memref sig .tc .vmem S1024x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x1024 .bf16) (harg13 : arg13.IsWhole) (hc0 : cond0_0 i) (hc1 : ¬cond0_1 i)
    (x0 : Vec F S1024x1024 .f32) (x1 : Vec F S256x1024 .f32) (x2 : Vec F S256x1024 .f32) (x3 : Vec F S1024x256 .f32) (x4 : Vec F S1024x1024 .bf16) (x5 : Vec F S1x1024 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay3 (k0_pay12 x1 (k0_pay9 x0) (k0_pay10 x0) x3 k0_pay5) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S1024x1) hz]
  simp only [View.readAt_eq_ld, harg3.read_unread, harg2.read_unread, harg5.read_unread,
    View.ld_unit_zero (S := S256x1024) hz, View.ld_unit_zero (S := S1024x1024) hz, View.ld_unit_zero (S := S1024x256) hz, View.ld_unit_zero (S := S1024x1) hz, View.ld_unit_zero (S := S1x1024) hz,
    View.readCov_unit_zero (S := S1024x1024) _ hz, View.readCov_unit_zero (S := S1024x1) _ hz]

theorem sA1 (c : Dev nD) (i : grid0.Coords) (arg2 : Memref sig .tc .vmem S1024x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x1024 .bf16) (harg13 : arg13.IsWhole) (hc0 : cond0_0 i) (hc1 : ¬cond0_1 i)
    (x0 : Vec F S1024x1024 .f32) (x1 : Vec F S256x1024 .f32) (x2 : Vec F S256x1024 .f32) (x3 : Vec F S1024x256 .f32) (x4 : Vec F S1024x1024 .bf16) (x5 : Vec F S1x1024 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay1 (k0_pay13 x1 (k0_pay9 x0) (k0_pay10 x0) x3 k0_pay5) (k0_pay14 x1 (k0_pay9 x0) (k0_pay10 x0) x3 k0_pay5) k0_pay6 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S1024x1) hz]
  simp only [View.readAt_eq_ld, harg3.read_unread, harg2.read_unread, harg5.read_unread,
    View.ld_unit_zero (S := S256x1024) hz, View.ld_unit_zero (S := S1024x1024) hz, View.ld_unit_zero (S := S1024x256) hz, View.ld_unit_zero (S := S1024x1) hz, View.ld_unit_zero (S := S1x1024) hz,
    View.readCov_unit_zero (S := S1024x1024) _ hz, View.readCov_unit_zero (S := S1024x1) _ hz]

theorem sA2 (c : Dev nD) (i : grid0.Coords) (arg2 : Memref sig .tc .vmem S1024x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S1024x256 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x1024 .bf16) (harg13 : arg13.IsWhole) (hc0 : cond0_0 i) (hc1 : ¬cond0_1 i)
    (x0 : Vec F S1024x1024 .f32) (x1 : Vec F S256x1024 .f32) (x2 : Vec F S256x1024 .f32) (x3 : Vec F S1024x256 .f32) (x4 : Vec F S1024x1024 .bf16) (x5 : Vec F S1x1024 .f32) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay2 (k0_pay13 x1 (k0_pay9 x0) (k0_pay10 x0) x3 k0_pay5) (k0_pay14 x1 (k0_pay9 x0) (k0_pay10 x0) x3 k0_pay5) x2 k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S1024x1024) hz]
  simp only [View.readAt_eq_ld, harg3.read_unread, harg2.read_unread, harg5.read_unread, harg4.read_unread,
    View.ld_unit_zero (S := S256x1024) hz, View.ld_unit_zero (S := S1024x1024) hz, View.ld_unit_zero (S := S1024x256) hz, View.ld_unit_zero (S := S1024x1) hz, View.ld_unit_zero (S := S1x1024) hz,
    View.readCov_unit_zero (S := S1024x1024) _ hz, View.readCov_unit_zero (S := S1024x1) _ hz]

end Cert.KernelIdeal.Pieces

end
-- ==== Proof.Spec.lean ====
/-
  The specification both programs meet, over the reals. From the twelve argument arrays read as real arrays:
  three affine projections q, k, v; the scores q·kᵀ scaled by the reciprocal of the reference's divisor; a score is
  kept where the adjacency entry is nonzero and the score's magnitude reaches the threshold, and replaced by the
  finite fill otherwise; a row's weights are the softmax of its masked scores, written without a shift (any common
  real shift of the exponents cancels between numerator and denominator); the weighted rows of v are projected
  once more. A block form of the masked scores serves a tile of rows against a tile of columns.
-/
import Mathlib.Analysis.Complex.Exponential
import Mathlib.Algebra.BigOperators.Group.Finset.Basic

noncomputable section

namespace Cert.Spec

/-- The argument arrays as real arrays. -/
structure Inputs where
  query : Fin 8192 → Fin 1024 → ℝ
  key : Fin 8192 → Fin 1024 → ℝ
  value : Fin 8192 → Fin 1024 → ℝ
  adj : Fin 8192 → Fin 8192 → ℝ
  Wq : Fin 1024 → Fin 1024 → ℝ
  bq : Fin 1024 → ℝ
  Wk : Fin 1024 → Fin 1024 → ℝ
  bk : Fin 1024 → ℝ
  Wv : Fin 1024 → Fin 1024 → ℝ
  bv : Fin 1024 → ℝ
  Wm : Fin 1024 → Fin 1024 → ℝ
  bm : Fin 1024 → ℝ

/-- The reciprocal of the reference's divisor 11863283 / 2^17. -/
def cInv : ℝ := 131072 / 11863283
/-- The finite fill of a masked score. -/
def negBig : ℝ := -1000000000
/-- The threshold on a score's magnitude. -/
def thr : ℝ := 10995116 / 1099511627776

/-- An affine projection `x Wᵀ + b`. -/
def proj {N : ℕ} (x : Fin N → Fin 1024 → ℝ) (W : Fin 1024 → Fin 1024 → ℝ) (b : Fin 1024 → ℝ) (n : Fin N) (e : Fin 1024) : ℝ :=
  ∑ d : Fin 1024, x n d * W e d + b e

/-- A tile of scaled scores: rows of `qr` against rows of `kr`. -/
def bscore {A B : ℕ} (qr : Fin A → Fin 1024 → ℝ) (kr : Fin B → Fin 1024 → ℝ) (r : Fin A) (j : Fin B) : ℝ :=
  (∑ e : Fin 1024, qr r e * kr j e) * cInv

/-- The tile masked: kept where the adjacency entry is nonzero and the magnitude reaches the threshold. -/
def bmasked {A B : ℕ} (qr : Fin A → Fin 1024 → ℝ) (kr : Fin B → Fin 1024 → ℝ) (ar : Fin A → Fin B → ℝ) (r : Fin A) (j : Fin B) : ℝ :=
  if ar r j ≠ 0 ∧ thr ≤ |bscore qr kr r j| then bscore qr kr r j else negBig

variable (I : Inputs)

def q : Fin 8192 → Fin 1024 → ℝ := proj I.query I.Wq I.bq
def k : Fin 8192 → Fin 1024 → ℝ := proj I.key I.Wk I.bk
def v : Fin 8192 → Fin 1024 → ℝ := proj I.value I.Wv I.bv

/-- The masked scores of the whole problem. -/
def masked (n m : Fin 8192) : ℝ := bmasked (q I) (k I) I.adj n m

/-- A row's normaliser. -/
def E (n : Fin 8192) : ℝ := ∑ m : Fin 8192, Real.exp (masked I n m)

/-- The attention output before the last projection. -/
def x (n : Fin 8192) (e : Fin 1024) : ℝ := (∑ m : Fin 8192, Real.exp (masked I n m) * v I m e) / E I n

/-- The result. -/
def out (n : Fin 8192) (d : Fin 1024) : ℝ := ∑ e : Fin 1024, x I n e * I.Wm d e + I.bm d

/-- Row `r` of row tile `qi` (tiles of 1024 rows). -/
def row (qi : Fin 8) (r : Fin 1024) : Fin 8192 := ⟨1024 * qi.val + r.val, by have := qi.isLt; have := r.isLt; omega⟩
/-- Column `j` of column tile `ki` (tiles of 256 columns). -/
def col (ki : Fin 32) (j : Fin 256) : Fin 8192 := ⟨256 * ki.val + j.val, by have := ki.isLt; have := j.isLt; omega⟩

/-- A row's masked scores and v's rows extended by zero past the last column, for sums over an initial stretch. -/
def maskedN (n : Fin 8192) (j : ℕ) : ℝ := if h : j < 8192 then masked I n ⟨j, h⟩ else 0
def vN (e : Fin 1024) (j : ℕ) : ℝ := if h : j < 8192 then v I ⟨j, h⟩ e else 0

/-- The shifted normaliser over the first `cnt` columns. -/
def pre (n : Fin 8192) (M : ℝ) (cnt : ℕ) : ℝ := ∑ j ∈ Finset.range cnt, Real.exp (maskedN I n j - M)
/-- The shifted weighted sum of v's rows over the first `cnt` columns. -/
def preV (n : Fin 8192) (e : Fin 1024) (M : ℝ) (cnt : ℕ) : ℝ :=
  ∑ j ∈ Finset.range cnt, Real.exp (maskedN I n j - M) * vN I e j

end Cert.Spec

end
-- ==== Proof.KernelBlocks.lean ====
import proofs.«415173_j7224134992243_3_alg».proof.Proof.Gen.KernelIdeal.Frame
import proofs.«415173_j7224134992243_3_alg».proof.Proof.Spec
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! The windows' blocks read at an index: at grid point `t` (row tile `t / 32`, column tile `t % 32`) the query
    window shows rows `1024·(t/32) + r` of q, the key and value windows rows `256·(t%32) + j` of k and v, the
    adjacency window the tile at those rows and columns, and the two projection windows their whole arrays. -/

namespace Cert.KernelIdeal.Blocks

open Cert.KernelIdeal Cert.KernelIdeal.Gen Idealize.ShloMosaic.ValueIdx Cert.Spec

variable {F : FTy → Type} [FloatOps F] [Named F]
variable (m : (ℓ : Loc nD τ sig) → Buf (Elt F) ℓ)

/-- The row tile and the column tile of a grid point. -/
def qiOf (t : Fin cfg0.N) : Fin 8 := ⟨t.val / 32, by have := t.isLt; have : cfg0.N = 256 := N_0; omega⟩
def kiOf (t : Fin cfg0.N) : Fin 32 := ⟨t.val % 32, Nat.mod_lt _ (by decide)⟩

abbrev qblk (c : Dev nD) (t : Fin cfg0.N) : Vec F S1024x1024 .f32 := iblk m c 0 t
abbrev kblk (c : Dev nD) (t : Fin cfg0.N) : Vec F S256x1024 .f32 := iblk m c 1 t
abbrev vblk (c : Dev nD) (t : Fin cfg0.N) : Vec F S256x1024 .f32 := iblk m c 2 t
abbrev ablk (c : Dev nD) (t : Fin cfg0.N) : Vec F S1024x256 .f32 := iblk m c 3 t
abbrev wblk (c : Dev nD) (t : Fin cfg0.N) : Vec F S1024x1024 .bf16 := iblk m c 4 t
abbrev bblk (c : Dev nD) (t : Fin cfg0.N) : Vec F S1x1024 .f32 := iblk m c 5 t

theorem idx0 : ∀ t : Fin cfg0.N, win0_0.index t (0 : Fin 2) = t.val / 32 ∧ win0_0.index t (1 : Fin 2) = 0 :=
  (by decide +kernel : ∀ t : Fin grid0.N, _)

theorem qblk_apply (c : Dev nD) (t : Fin cfg0.N) (r e : Fin 1024) :
    qblk m c t (ix2 r e) = (V m c main_v4 : S8192x1024.Idx → F .f32) (ix2 (row (qiOf t) r) e) := by
  unfold qblk iblk
  rw [View.read_apply]
  show V m c main_v4 _ = V m c main_v4 _
  congr 1
  funext a
  apply Fin.ext
  match a with
  | ⟨0, _⟩ => show win0_0.index t 0 * 1024 + 1 * r.val = 1024 * (t.val / 32) + r.val; rw [(idx0 t).1]; omega
  | ⟨1, _⟩ => show win0_0.index t 1 * 1024 + 1 * e.val = e.val; rw [(idx0 t).2]; omega

theorem idx1 : ∀ t : Fin cfg0.N, win0_1.index t (0 : Fin 2) = t.val % 32 ∧ win0_1.index t (1 : Fin 2) = 0 :=
  (by decide +kernel : ∀ t : Fin grid0.N, _)
theorem idx2 : ∀ t : Fin cfg0.N, win0_2.index t (0 : Fin 2) = t.val % 32 ∧ win0_2.index t (1 : Fin 2) = 0 :=
  (by decide +kernel : ∀ t : Fin grid0.N, _)
theorem idx3 : ∀ t : Fin cfg0.N, win0_3.index t (0 : Fin 2) = t.val / 32 ∧ win0_3.index t (1 : Fin 2) = t.val % 32 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val / 32 ∧ win0_6.index t (1 : Fin 2) = 0 :=
  (by decide +kernel : ∀ t : Fin grid0.N, _)

theorem kblk_apply (c : Dev nD) (t : Fin cfg0.N) (j : Fin 256) (e : Fin 1024) :
    kblk m c t (ix2 j e) = (V m c main_v9 : S8192x1024.Idx → F .f32) (ix2 (col (kiOf t) j) e) := by
  unfold kblk iblk
  rw [View.read_apply]
  show V m c main_v9 _ = V m c main_v9 _
  congr 1
  funext a
  apply Fin.ext
  match a with
  | ⟨0, _⟩ => show win0_1.index t 0 * 256 + 1 * j.val = 256 * (t.val % 32) + j.val; rw [(idx1 t).1]; omega
  | ⟨1, _⟩ => show win0_1.index t 1 * 1024 + 1 * e.val = e.val; rw [(idx1 t).2]; omega

theorem vblk_apply (c : Dev nD) (t : Fin cfg0.N) (j : Fin 256) (e : Fin 1024) :
    vblk m c t (ix2 j e) = (V m c main_v14 : S8192x1024.Idx → F .f32) (ix2 (col (kiOf t) j) e) := by
  unfold vblk iblk
  rw [View.read_apply]
  show V m c main_v14 _ = V m c main_v14 _
  congr 1
  funext a
  apply Fin.ext
  match a with
  | ⟨0, _⟩ => show win0_2.index t 0 * 256 + 1 * j.val = 256 * (t.val % 32) + j.val; rw [(idx2 t).1]; omega
  | ⟨1, _⟩ => show win0_2.index t 1 * 1024 + 1 * e.val = e.val; rw [(idx2 t).2]; omega

theorem ablk_apply (c : Dev nD) (t : Fin cfg0.N) (r : Fin 1024) (j : Fin 256) :
    ablk m c t (ix2 r j) = (V m c main_arg3 : S8192x8192.Idx → F .f32) (ix2 (row (qiOf t) r) (col (kiOf t) j)) := by
  unfold ablk iblk
  rw [View.read_apply]
  show V m c main_arg3 _ = V m c main_arg3 _
  congr 1
  funext a
  apply Fin.ext
  match a with
  | ⟨0, _⟩ => show win0_3.index t 0 * 1024 + 1 * r.val = 1024 * (t.val / 32) + r.val; rw [(idx3 t).1]; omega
  | ⟨1, _⟩ => show win0_3.index t 1 * 256 + 1 * j.val = 256 * (t.val % 32) + j.val; rw [(idx3 t).2]; omega

theorem wblk_apply (c : Dev nD) (t : Fin cfg0.N) (d e : Fin 1024) :
    wblk m c t (ix2 d e) = (V m c main_v15 : S1024x1024.Idx → F .bf16) (ix2 d e) := by
  unfold wblk iblk
  rw [View.read_apply]
  show V m c main_v15 _ = V m c main_v15 _
  congr 1
  funext a
  apply Fin.ext
  match a with
  | ⟨0, _⟩ => show win0_4.index t 0 * 1024 + 1 * d.val = d.val; rw [(idx4 t).1]; omega
  | ⟨1, _⟩ => show win0_4.index t 1 * 1024 + 1 * e.val = e.val; rw [(idx4 t).2]; omega

theorem bblk_apply (c : Dev nD) (t : Fin cfg0.N) (d : Fin 1024) :
    bblk m c t (ix2 (0 : Fin 1) d) = (V m c main_v16 : S1x1024.Idx → F .f32) (ix2 (0 : Fin 1) d) := by
  unfold bblk iblk
  rw [View.read_apply]
  show V m c main_v16 _ = V m c main_v16 _
  congr 1
  funext a
  apply Fin.ext
  match a with
  | ⟨0, _⟩ => show win0_5.index t 0 * 1 + 1 * 0 = 0; rw [(idx5 t).1]
  | ⟨1, _⟩ => show win0_5.index t 1 * 1024 + 1 * d.val = d.val; rw [(idx5 t).2]; omega

end Cert.KernelIdeal.Blocks

end
-- ==== Proof.KernelCases.lean ====
import proofs.«415173_j7224134992243_3_alg».proof.Proof.KernelPieces
import proofs.«415173_j7224134992243_3_alg».proof.Proof.KernelBlocks
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! What the carried scratch and the output tile hold after a grid point, component by component, as the body's stored
    values of the point's blocks and of what the point before left: the frame's case equations joined with the
    cases' stored values. -/

namespace Cert.KernelIdeal.Cases

open Cert.KernelIdeal Cert.KernelIdeal.Gen Cert.KernelIdeal.Blocks

variable {F : FTy → Type} [FloatOps F] [Named F]
variable (m : (ℓ : Loc nD τ sig) → Buf (Elt F) ℓ)

/-- What the point before `t` left: the running maximum, the normaliser, the accumulator, the cached query tile's two parts. -/
abbrev pm (c : Dev nD) (t : Fin cfg0.N) : Vec F S1024x1 .f32 := (outsAt0 m c (t.val - 1) (Nat.lt_of_le_of_lt (Nat.sub_le _ _) t.isLt)).2.1
abbrev pl (c : Dev nD) (t : Fin cfg0.N) : Vec F S1024x1 .f32 := (outsAt0 m c (t.val - 1) (Nat.lt_of_le_of_lt (Nat.sub_le _ _) t.isLt)).2.2.1
abbrev pacc (c : Dev nD) (t : Fin cfg0.N) : Vec F S1024x1024 .f32 := (outsAt0 m c (t.val - 1) (Nat.lt_of_le_of_lt (Nat.sub_le _ _) t.isLt)).2.2.2.1
abbrev pqh (c : Dev nD) (t : Fin cfg0.N) : Vec F S1024x1024 .bf16 := (outsAt0 m c (t.val - 1) (Nat.lt_of_le_of_lt (Nat.sub_le _ _) t.isLt)).2.2.2.2.1
abbrev pql (c : Dev nD) (t : Fin cfg0.N) : Vec F S1024x1024 .bf16 := (outsAt0 m c (t.val - 1) (Nat.lt_of_le_of_lt (Nat.sub_le _ _) t.isLt)).2.2.2.2.2

theorem A_m (c : Dev nD) (t : Fin cfg0.N) (h0 : t.val % 32 = 0) (h1 : ¬t.val % 32 = 31) :
    (outsAt0 m c t.val t.isLt).2.1 = k0_pay3 (k0_pay12 (kblk m c t) (k0_pay9 (qblk m c t)) (k0_pay10 (qblk m c t)) (ablk m c t) k0_pay5) := by
  rw [outsAt0_A m c t h0 h1]; dsimp only
  exact Pieces.sA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem A_l (c : Dev nD) (t : Fin cfg0.N) (h0 : t.val % 32 = 0) (h1 : ¬t.val % 32 = 31) :
    (outsAt0 m c t.val t.isLt).2.2.1 = k0_pay1 (k0_pay13 (kblk m c t) (k0_pay9 (qblk m c t)) (k0_pay10 (qblk m c t)) (ablk m c t) k0_pay5) (k0_pay14 (kblk m c t) (k0_pay9 (qblk m c t)) (k0_pay10 (qblk m c t)) (ablk m c t) k0_pay5) k0_pay6 := by
  rw [outsAt0_A m c t h0 h1]; dsimp only
  exact Pieces.sA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem A_acc (c : Dev nD) (t : Fin cfg0.N) (h0 : t.val % 32 = 0) (h1 : ¬t.val % 32 = 31) :
    (outsAt0 m c t.val t.isLt).2.2.2.1 = k0_pay2 (k0_pay13 (kblk m c t) (k0_pay9 (qblk m c t)) (k0_pay10 (qblk m c t)) (ablk m c t) k0_pay5) (k0_pay14 (kblk m c t) (k0_pay9 (qblk m c t)) (k0_pay10 (qblk m c t)) (ablk m c t) k0_pay5) (vblk m c t) k0_pay7 := by
  rw [outsAt0_A m c t h0 h1]; dsimp only
  exact Pieces.sA2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem A_qh (c : Dev nD) (t : Fin cfg0.N) (h0 : t.val % 32 = 0) (h1 : ¬t.val % 32 = 31) :
    (outsAt0 m c t.val t.isLt).2.2.2.2.1 = k0_pay9 (qblk m c t) := by
  rw [outsAt0_A m c t h0 h1]; dsimp only
  exact Pieces.sA3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem A_ql (c : Dev nD) (t : Fin cfg0.N) (h0 : t.val % 32 = 0) (h1 : ¬t.val % 32 = 31) :
    (outsAt0 m c t.val t.isLt).2.2.2.2.2 = k0_pay10 (qblk m c t) := by
  rw [outsAt0_A m c t h0 h1]; dsimp only
  exact Pieces.sA4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t)

theorem B_m (c : Dev nD) (t : Fin cfg0.N) (h0 : ¬t.val % 32 = 0) (h1 : ¬t.val % 32 = 31) :
    (outsAt0 m c t.val t.isLt).2.1 = k0_pay3 (k0_pay12 (kblk m c t) (pqh m c t) (pql m c t) (ablk m c t) (pm m c t)) := by
  rw [outsAt0_B m c t h0 h1]; dsimp only
  exact Pieces.sB0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem B_l (c : Dev nD) (t : Fin cfg0.N) (h0 : ¬t.val % 32 = 0) (h1 : ¬t.val % 32 = 31) :
    (outsAt0 m c t.val t.isLt).2.2.1 = k0_pay1 (k0_pay13 (kblk m c t) (pqh m c t) (pql m c t) (ablk m c t) (pm m c t)) (k0_pay14 (kblk m c t) (pqh m c t) (pql m c t) (ablk m c t) (pm m c t)) (pl m c t) := by
  rw [outsAt0_B m c t h0 h1]; dsimp only
  exact Pieces.sB1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem B_acc (c : Dev nD) (t : Fin cfg0.N) (h0 : ¬t.val % 32 = 0) (h1 : ¬t.val % 32 = 31) :
    (outsAt0 m c t.val t.isLt).2.2.2.1 = k0_pay2 (k0_pay13 (kblk m c t) (pqh m c t) (pql m c t) (ablk m c t) (pm m c t)) (k0_pay14 (kblk m c t) (pqh m c t) (pql m c t) (ablk m c t) (pm m c t)) (vblk m c t) (pacc m c t) := by
  rw [outsAt0_B m c t h0 h1]; dsimp only
  exact Pieces.sB2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem B_qh (c : Dev nD) (t : Fin cfg0.N) (h0 : ¬t.val % 32 = 0) (h1 : ¬t.val % 32 = 31) :
    (outsAt0 m c t.val t.isLt).2.2.2.2.1 = (pqh m c t) := by
  rw [outsAt0_B m c t h0 h1]; dsimp only
  exact Pieces.sB3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem B_ql (c : Dev nD) (t : Fin cfg0.N) (h0 : ¬t.val % 32 = 0) (h1 : ¬t.val % 32 = 31) :
    (outsAt0 m c t.val t.isLt).2.2.2.2.2 = (pql m c t) := by
  rw [outsAt0_B m c t h0 h1]; dsimp only
  exact Pieces.sB4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem C_m (c : Dev nD) (t : Fin cfg0.N) (h0 : ¬t.val % 32 = 0) (h1 : t.val % 32 = 31) :
    (outsAt0 m c t.val t.isLt).2.1 = k0_pay3 (k0_pay12 (kblk m c t) (pqh m c t) (pql m c t) (ablk m c t) (pm m c t)) := by
  rw [outsAt0_C m c t h0 h1]; dsimp only
  exact Pieces.sC0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem C_l (c : Dev nD) (t : Fin cfg0.N) (h0 : ¬t.val % 32 = 0) (h1 : t.val % 32 = 31) :
    (outsAt0 m c t.val t.isLt).2.2.1 = k0_pay1 (k0_pay13 (kblk m c t) (pqh m c t) (pql m c t) (ablk m c t) (pm m c t)) (k0_pay14 (kblk m c t) (pqh m c t) (pql m c t) (ablk m c t) (pm m c t)) (pl m c t) := by
  rw [outsAt0_C m c t h0 h1]; dsimp only
  exact Pieces.sC1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem C_acc (c : Dev nD) (t : Fin cfg0.N) (h0 : ¬t.val % 32 = 0) (h1 : t.val % 32 = 31) :
    (outsAt0 m c t.val t.isLt).2.2.2.1 = k0_pay2 (k0_pay13 (kblk m c t) (pqh m c t) (pql m c t) (ablk m c t) (pm m c t)) (k0_pay14 (kblk m c t) (pqh m c t) (pql m c t) (ablk m c t) (pm m c t)) (vblk m c t) (pacc m c t) := by
  rw [outsAt0_C m c t h0 h1]; dsimp only
  exact Pieces.sC2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem C_qh (c : Dev nD) (t : Fin cfg0.N) (h0 : ¬t.val % 32 = 0) (h1 : t.val % 32 = 31) :
    (outsAt0 m c t.val t.isLt).2.2.2.2.1 = (pqh m c t) := by
  rw [outsAt0_C m c t h0 h1]; dsimp only
  exact Pieces.sC3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem C_ql (c : Dev nD) (t : Fin cfg0.N) (h0 : ¬t.val % 32 = 0) (h1 : t.val % 32 = 31) :
    (outsAt0 m c t.val t.isLt).2.2.2.2.2 = (pql m c t) := by
  rw [outsAt0_C m c t h0 h1]; dsimp only
  exact Pieces.sC4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

theorem C_out (c : Dev nD) (t : Fin cfg0.N) (h0 : ¬t.val % 32 = 0) (h1 : t.val % 32 = 31) :
    (outsAt0 m c t.val t.isLt).1 = k0_pay4 (k0_pay2 (k0_pay13 (kblk m c t) (pqh m c t) (pql m c t) (ablk m c t) (pm m c t)) (k0_pay14 (kblk m c t) (pqh m c t) (pql m c t) (ablk m c t) (pm m c t)) (vblk m c t) (pacc m c t)) (k0_pay1 (k0_pay13 (kblk m c t) (pqh m c t) (pql m c t) (ablk m c t) (pm m c t)) (k0_pay14 (kblk m c t) (pqh m c t) (pql m c t) (ablk m c t) (pm m c t)) (pl m c t)) (wblk m c t) (bblk m c t) := by
  rw [outsAt0_C m c t h0 h1]; dsimp only
  exact Pieces.oC6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

end Cert.KernelIdeal.Cases

end
-- ==== Proof.Consts.lean ====
/-
  The float constants the two programs spell, as the extended reals their bit patterns denote: zero, one, the
  scores' threshold, the finite mask fill, the two infinities, and the reference's divisor 64·√2 rounded to f32.
  The threshold is only needed positive and finite, the fill only finite.
-/
import Idealize.ShloMosaic.PureOps.Ideal

noncomputable section

namespace Cert.Consts

open Idealize.ShloMosaic

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = ((1 : ℝ) : EReal) := by
  simp [Ideal.ofBits, Ideal.ieee, -EReal.coe_mul]; norm_num

/-- The threshold below which a score is masked: f32's nearest value to 1e-5, the dyadic 10995116 / 2^40. -/
theorem ofBits_thr : Ideal.ofBits .f32 0x3727C5AC#32 = ((10995116 / 1099511627776 : ℝ) : EReal) := by
  simp [Ideal.ofBits, Ideal.ieee, -EReal.coe_mul]; norm_num

/-- The mask fill `-1e9` is exactly representable. -/
theorem ofBits_negBig : Ideal.ofBits .f32 0xCE6E6B28#32 = ((-1000000000 : ℝ) : EReal) := by
  simp [Ideal.ofBits, Ideal.ieee, -EReal.coe_mul]; norm_num

/-- The running maximum's start. -/
theorem ofBits_negInf : Ideal.ofBits .f32 0xFF800000#32 = ⊥ := by
  simp [Ideal.ofBits, Ideal.ieee]

/-- The finiteness test's bound. -/
theorem ofBits_posInf : Ideal.ofBits .f32 0x7F800000#32 = ⊤ := by
  simp [Ideal.ofBits, Ideal.ieee]

/-- The reference's divisor: f32's nearest value to √8192, the dyadic 11863283 / 2^17. -/
theorem ofBits_scale : Ideal.ofBits .f32 0x42B504F3#32 = ((11863283 / 131072 : ℝ) : EReal) := by
  simp [Ideal.ofBits, Ideal.ieee, -EReal.coe_mul]; norm_num

end Cert.Consts

end
-- ==== Proof.Lift.lean ====
/-
  Extended reals that are reals: sums, products, quotients, exponentials and maxima of real values stay real, and a
  value that is neither infinity is the coercion of its real part.
-/
import Idealize.ShloMosaic.PureOps.Ideal
import Mathlib.Data.Finset.Fold

noncomputable section

namespace Cert.Lift

open Idealize.ShloMosaic

/-- The coercion commutes with finite sums. -/
theorem coe_sum {ι : Type*} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- A sum of products of real values. -/
theorem sum_mul_coe {ι : Type*} (s : Finset ι) (f g : ι → ℝ) :
    ∑ i ∈ s, (f i : EReal) * (g i : EReal) = ((∑ i ∈ s, f i * g i : ℝ) : EReal) := by
  rw [coe_sum]; exact Finset.sum_congr rfl fun i _ => (EReal.coe_mul _ _).symm

/-- A value that is neither infinity is a real. -/
theorem eq_coe_toReal {x : EReal} (h1 : x ≠ ⊤) (h2 : x ≠ ⊥) : x = ((x.toReal : ℝ) : EReal) := (EReal.coe_toReal h1 h2).symm

/-- The quotient of reals by a nonzero real. -/
theorem div_coe_coe (x y : ℝ) (h : y ≠ 0) : Ideal.div (x : EReal) (y : EReal) = ((x / y : ℝ) : EReal) := by
  rw [Ideal.div_coe h, ← EReal.coe_mul]; congr 1; ring

/-- The exponential of a real. -/
theorem exp_coe (x : ℝ) : Ideal.exp (x : EReal) = ((Real.exp x : ℝ) : EReal) := rfl

/-- The maximum of two reals. -/
theorem max_coe (a b : ℝ) : max (a : EReal) (b : EReal) = ((max a b : ℝ) : EReal) :=
  (EReal.coe_strictMono.monotone.map_max).symm

/-- The running maximum from `-∞` over a nonempty family of reals is a real. -/
theorem fold_max_ne_top {n : ℕ} (b : EReal) (hb : b ≠ ⊤) (f : Fin n → ℝ) :
    (Finset.univ : Finset (Fin n)).fold max b (fun k => (f k : EReal)) ≠ ⊤ :=
  ne_of_lt ((Finset.fold_max_lt _).2 ⟨lt_top_iff_ne_top.2 hb, fun x _ => EReal.coe_lt_top _⟩)

theorem fold_max_ne_bot {n : ℕ} (hn : 0 < n) (b : EReal) (f : Fin n → ℝ) :
    (Finset.univ : Finset (Fin n)).fold max b (fun k => (f k : EReal)) ≠ ⊥ :=
  ne_of_gt (lt_of_lt_of_le (EReal.bot_lt_coe (f ⟨0, hn⟩))
    ((Finset.le_fold_max _).2 (Or.inr ⟨⟨0, hn⟩, Finset.mem_univ _, le_rfl⟩)))

end Cert.Lift

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.PayloadScore.lean ====
import proofs.«415173_j7224134992243_3_alg».proof.Proof.Gen.KernelIdeal.Skeleton
import proofs.«415173_j7224134992243_3_alg».proof.Proof.Spec
import proofs.«415173_j7224134992243_3_alg».proof.Proof.Consts
import proofs.«415173_j7224134992243_3_alg».proof.Proof.Lift
import proofs.«415173_j7224134992243_3_alg».proof.Proof.LibKeepdims
import Idealize.ShloMosaic.Lib.ValueIdx
import Idealize.ShloMosaic.PureOps.Ideal.Laws
import Idealize.ShloMosaic.PureOps.IdealRules
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! The body's stored values at the extended reals, read at an index, for blocks and carried contents that hold reals. -/

namespace Cert.KernelIdeal.Payload

open Cert.KernelIdeal Cert.KernelIdeal.Gen Idealize.ShloMosaic.ValueIdx Cert.Spec

/-! ### The contraction of a row of the left operand against a row of the right one -/

private theorem lhs_axis_0 (i : S1024x256.Idx) (q : dot_S1024x1024_S256x1024_S1024x256_1_1_0_0_n_n.contr.Idx) :
    (dot_S1024x1024_S256x1024_S1024x256_1_1_0_0_n_n.lhsIdx i q 0).val = (i 0).val := by
  unfold DotDims.lhsIdx
  rw [dif_neg (show ¬(0 : Fin S1024x1024.rank) ∈ dot_S1024x1024_S256x1024_S1024x256_1_1_0_0_n_n.lhsBatch by decide), dif_pos (show (0 : Fin S1024x1024.rank) ∈ dot_S1024x1024_S256x1024_S1024x256_1_1_0_0_n_n.lhsNonContracting by decide)]
  rfl
private theorem lhs_axis_1 (i : S1024x256.Idx) (q : dot_S1024x1024_S256x1024_S1024x256_1_1_0_0_n_n.contr.Idx) :
    (dot_S1024x1024_S256x1024_S1024x256_1_1_0_0_n_n.lhsIdx i q 1).val = (q ⟨0, by decide⟩).val :=
  dot_S1024x1024_S256x1024_S1024x256_1_1_0_0_n_n.lhsIdx_val_of_single rfl i q
private theorem rhs_axis_0 (i : S1024x256.Idx) (q : dot_S1024x1024_S256x1024_S1024x256_1_1_0_0_n_n.contr.Idx) :
    (dot_S1024x1024_S256x1024_S1024x256_1_1_0_0_n_n.rhsIdx i q 0).val = (i 1).val := by
  unfold DotDims.rhsIdx
  rw [dif_neg (show ¬(0 : Fin S256x1024.rank) ∈ dot_S1024x1024_S256x1024_S1024x256_1_1_0_0_n_n.rhsBatch by decide), dif_pos (show (0 : Fin S256x1024.rank) ∈ dot_S1024x1024_S256x1024_S1024x256_1_1_0_0_n_n.rhsNonContracting by decide)]
  rfl
private theorem rhs_axis_1 (i : S1024x256.Idx) (q : dot_S1024x1024_S256x1024_S1024x256_1_1_0_0_n_n.contr.Idx) :
    (dot_S1024x1024_S256x1024_S1024x256_1_1_0_0_n_n.rhsIdx i q 1).val = (q ⟨0, by decide⟩).val :=
  dot_S1024x1024_S256x1024_S1024x256_1_1_0_0_n_n.rhsIdx_val_of_single rfl i q

/-- A product of a `[1024, 1024]` tile with the transpose of a `[256, 1024]` tile into the zero accumulator, read at
    `(r, j)`: the sum over the 1024 features of row `r` of the first times row `j` of the second. -/
private theorem matmul_rows_apply (a : FVec Ideal S1024x1024 .bf16) (b : FVec Ideal S256x1024 .bf16) (r : Fin 1024) (j : Fin 256) :
    matmul dot_S1024x1024_S256x1024_S1024x256_1_1_0_0_n_n none a b (constant (F := Ideal) S1024x256 .f32 0x00000000#32) (ix2 r j)
      = ∑ e : Fin 1024, a (ix2 r e) * b (ix2 j e) := by
  refine (Ideal.matmul_constant_zero_apply dot_S1024x1024_S256x1024_S1024x256_1_1_0_0_n_n none a b (ix2 r j)).trans ?_
  rw [← Equiv.sum_comp (contrEquiv1 dot_S1024x1024_S256x1024_S1024x256_1_1_0_0_n_n 1024 rfl rfl).symm]
  refine Finset.sum_congr rfl fun k _ => ?_
  have hk := contrEquiv1_symm_val dot_S1024x1024_S256x1024_S1024x256_1_1_0_0_n_n 1024 rfl rfl k
  have el : dot_S1024x1024_S256x1024_S1024x256_1_1_0_0_n_n.lhsIdx (ix2 r j) ((contrEquiv1 dot_S1024x1024_S256x1024_S1024x256_1_1_0_0_n_n 1024 rfl rfl).symm k) = ix2 r k := funext fun a => Fin.ext (by
    match a with
    | ⟨0, _⟩ => exact lhs_axis_0 _ _
    | ⟨1, _⟩ => exact (lhs_axis_1 _ _).trans hk)
  have er : dot_S1024x1024_S256x1024_S1024x256_1_1_0_0_n_n.rhsIdx (ix2 r j) ((contrEquiv1 dot_S1024x1024_S256x1024_S1024x256_1_1_0_0_n_n 1024 rfl rfl).symm k) = ix2 j k := funext fun a => Fin.ext (by
    match a with
    | ⟨0, _⟩ => exact rhs_axis_0 _ _
    | ⟨1, _⟩ => exact (rhs_axis_1 _ _).trans hk)
  rw [el, er]

/-! ### The scaled scores before the mask -/

/-- The scaled score tile: the three products into zero accumulators, added, times the scale. -/
private def scoreTile (x1 : Vec Ideal S256x1024 .f32) (xs3 xs4 : Vec Ideal S1024x1024 .bf16) : FVec Ideal S1024x256 .f32 :=
  mulf
    (addf
      (addf
        (matmul (φ₁ := .bf16) dot_S1024x1024_S256x1024_S1024x256_1_1_0_0_n_n none xs3
          (truncf .bf16 (shapeCast S256x1024 x1 shapeCasts_S256x1024_S256x1024) bitsLt_bf16_f32)
          (constant (F := Ideal) S1024x256 .f32 0x00000000#32))
        (matmul (φ₁ := .bf16) dot_S1024x1024_S256x1024_S1024x256_1_1_0_0_n_n none xs3
          (truncf .bf16 (subf (shapeCast S256x1024 x1 shapeCasts_S256x1024_S256x1024) (shapeCast S256x1024 x1 shapeCasts_S256x1024_S256x1024)) bitsLt_bf16_f32)
          (constant (F := Ideal) S1024x256 .f32 0x00000000#32)))
      (matmul (φ₁ := .bf16) dot_S1024x1024_S256x1024_S1024x256_1_1_0_0_n_n none xs4
        (truncf .bf16 (shapeCast S256x1024 x1 shapeCasts_S256x1024_S256x1024) bitsLt_bf16_f32)
        (constant (F := Ideal) S1024x256 .f32 0x00000000#32)))
    (broadcast S1024x256 (Named.named (F := Ideal) κ "inv_scale" 0x3C3504F3#32))

/-- The masked tile is the select, on the keep-mask, between the scaled scores and the fill. -/
private theorem pay11_eq (x1 : Vec Ideal S256x1024 .f32) (xs3 xs4 : Vec Ideal S1024x1024 .bf16) (x3 : Vec Ideal S1024x256 .f32) :
    k0_pay11 (F := Ideal) x1 xs3 xs4 x3
      = select
          (andi (cmpf .one x3 (broadcast S1024x256 (Scalar.ofBits (F := Ideal) .f32 0x00000000#32)))
            (cmpf .oge (absf (scoreTile x1 xs3 xs4)) (broadcast S1024x256 (Scalar.ofBits (F := Ideal) .f32 0x3727C5AC#32))))
          (scoreTile x1 xs3 xs4)
          (broadcast S1024x256 (Scalar.ofBits (F := Ideal) .f32 0xCE6E6B28#32)) := rfl

/-- The scaled score of row `r` against row `j`, as a real. -/
private theorem scoreTile_apply (x1 : Vec Ideal S256x1024 .f32) (xs3 xs4 : Vec Ideal S1024x1024 .bf16)
    (qr : Fin 1024 → Fin 1024 → ℝ) (kr : Fin 256 → Fin 1024 → ℝ)
    (hk : ∀ j e, x1 (ix2 j e) = ((kr j e : ℝ) : EReal)) (hq : ∀ r e, xs3 (ix2 r e) = ((qr r e : ℝ) : EReal))
    (hlo : ∀ r e, xs4 (ix2 r e) = ((0 : ℝ) : EReal)) (r : Fin 1024) (j : Fin 256) :
    scoreTile x1 xs3 xs4 (ix2 r j) = ((bscore qr kr r j : ℝ) : EReal) := by
  unfold scoreTile
  rw [shapeCast_self x1 shapeCasts_S256x1024_S256x1024, mulf_apply, addf_apply, addf_apply, broadcast_apply,
    matmul_rows_apply, matmul_rows_apply, matmul_rows_apply,
    IdealRules.named_const.ideal_named_scalar κ "inv_scale" _ _ rfl]
  have h1 : ∑ e : Fin 1024, xs3 (ix2 r e) * (truncf (F := Ideal) .bf16 x1 bitsLt_bf16_f32) (ix2 j e)
      = ((∑ e : Fin 1024, qr r e * kr j e : ℝ) : EReal) := by
    rw [← Cert.Lift.sum_mul_coe]
    refine Finset.sum_congr rfl fun e _ => ?_
    rw [hq, truncf_apply, hk]
  have h2 : ∑ e : Fin 1024, xs3 (ix2 r e) * (truncf (F := Ideal) .bf16 (subf x1 x1) bitsLt_bf16_f32) (ix2 j e) = 0 := by
    refine Finset.sum_eq_zero fun e _ => ?_
    rw [truncf_apply, subf_apply, hk, ← EReal.coe_sub, sub_self, EReal.coe_zero, mul_zero]
  have h3 : ∑ e : Fin 1024, xs4 (ix2 r e) * (truncf (F := Ideal) .bf16 x1 bitsLt_bf16_f32) (ix2 j e) = 0 := by
    refine Finset.sum_eq_zero fun e _ => ?_
    rw [hlo, EReal.coe_zero, zero_mul]
  rw [h1, h2, h3, add_zero, add_zero, ← EReal.coe_mul]
  rfl

/-- The select on the keep-mask of a real adjacency entry and a real score: the mask's two comparisons decided over the reals. -/
private theorem select_keep (a s : ℝ) (x y : EReal) :
    Scalar.select (IntOp.andi (Ideal.cmp .one (a : EReal) 0) (Ideal.cmp .oge ((|s| : ℝ) : EReal) ((thr : ℝ) : EReal))) x y
      = if a ≠ 0 ∧ thr ≤ |s| then x else y := by
  have e1 : Ideal.cmp .one (a : EReal) 0 = BitVec.ofBool (decide (a ≠ 0)) := by
    show BitVec.ofBool (decide ((a : EReal) ≠ 0)) = _
    congr 1
    exact decide_eq_decide.2 EReal.coe_ne_zero
  have e2 : Ideal.cmp .oge ((|s| : ℝ) : EReal) ((thr : ℝ) : EReal) = BitVec.ofBool (decide (thr ≤ |s|)) := by
    show BitVec.ofBool (decide (((thr : ℝ) : EReal) ≤ ((|s| : ℝ) : EReal))) = _
    congr 1
    exact decide_eq_decide.2 EReal.coe_le_coe_iff
  rw [e1, e2]
  by_cases h1 : a ≠ 0
  · by_cases h2 : thr ≤ |s|
    · rw [if_pos ⟨h1, h2⟩, decide_eq_true h1, decide_eq_true h2]; rfl
    · rw [if_neg (fun h => h2 h.2), decide_eq_true h1, decide_eq_false h2]; rfl
  · by_cases h2 : thr ≤ |s|
    · rw [if_neg (fun h => h1 h.1), decide_eq_false h1, decide_eq_true h2]; rfl
    · rw [if_neg (fun h => h1 h.1), decide_eq_false h1, decide_eq_false h2]; rfl

/-- The masked scores of a point: row `r` of the query tile against row `j` of the key tile. -/
theorem pay11_apply (x1 : Vec Ideal S256x1024 .f32) (xs3 xs4 : Vec Ideal S1024x1024 .bf16) (x3 : Vec Ideal S1024x256 .f32)
    (qr : Fin 1024 → Fin 1024 → ℝ) (kr : Fin 256 → Fin 1024 → ℝ) (ar : Fin 1024 → Fin 256 → ℝ)
    (hk : ∀ j e, x1 (ix2 j e) = ((kr j e : ℝ) : EReal)) (hq : ∀ r e, xs3 (ix2 r e) = ((qr r e : ℝ) : EReal))
    (hlo : ∀ r e, xs4 (ix2 r e) = ((0 : ℝ) : EReal)) (ha : ∀ r j, x3 (ix2 r j) = ((ar r j : ℝ) : EReal))
    (r : Fin 1024) (j : Fin 256) :
    k0_pay11 (F := Ideal) x1 xs3 xs4 x3 (ix2 r j) = ((bmasked qr kr ar r j : ℝ) : EReal) := by
  rw [pay11_eq]
  show Scalar.select
      (IntOp.andi (Ideal.cmp .one (x3 (ix2 r j)) (Ideal.ofBits .f32 0x00000000#32))
        (Ideal.cmp .oge (max (scoreTile x1 xs3 xs4 (ix2 r j)) (-(scoreTile x1 xs3 xs4 (ix2 r j)))) (Ideal.ofBits .f32 0x3727C5AC#32)))
      (scoreTile x1 xs3 xs4 (ix2 r j)) (Ideal.ofBits .f32 0xCE6E6B28#32) = _
  rw [scoreTile_apply x1 xs3 xs4 qr kr hk hq hlo r j, ha r j, Cert.Consts.ofBits_zero, Cert.Consts.ofBits_thr,
    Cert.Consts.ofBits_negBig]
  have habs : max ((bscore qr kr r j : ℝ) : EReal) (-((bscore qr kr r j : ℝ) : EReal)) = ((|bscore qr kr r j| : ℝ) : EReal) := by
    rw [← EReal.coe_neg, Cert.Lift.max_coe, ← abs_eq_max_neg]
  rw [habs]
  refine (select_keep (ar r j) (bscore qr kr r j) _ _).trans ?_
  unfold bmasked
  by_cases hkeep : ar r j ≠ 0 ∧ thr ≤ |bscore qr kr r j|
  · rw [if_pos hkeep, if_pos hkeep]
  · rw [if_neg hkeep, if_neg hkeep]; rfl

/-- A row maximum of a `[1024, 256]` tile from `-∞`, read at row `r`: the running maximum over the row's 256 entries. -/
private theorem rowMax_apply (src : FVec Ideal S1024x256 .f32) (hφ : FKind.Formats .f32)
    (hacc : (0xFF800000#32 : BitVec 32) = 0xFF800000#32) (r : Fin 1024) :
    multiReduction .maximumf [1] S1024 src 0xFF800000#32 reduces_S1024x256_S1024 hφ hacc (ix1 r)
      = (Finset.univ : Finset (Fin 256)).fold max ⊥ (fun k => src (ix2 r k)) := by
  refine (Ideal.multiReduction_maximumf_single src _ reduces_S1024x256_S1024 hφ hacc (ix1 r)).trans ?_
  show (Finset.univ : Finset (Fin 256)).fold max (Ideal.ofBits .f32 0xFF800000#32)
      (fun k => src (reduces_S1024x256_S1024.lift (ix1 r) k)) = _
  rw [Cert.Consts.ofBits_negInf]
  congr 1
  funext k
  refine congrArg src (funext fun ax => Fin.ext ?_)
  rw [Shape.Reduces.lift_val]
  match ax with
  | ⟨0, _⟩ => rfl
  | ⟨1, _⟩ => rfl

/-- The new running maximum of row `r`: the old one against the running maximum, from `-∞`, of the row's masked scores. -/
private theorem pay12_val (x1 : Vec Ideal S256x1024 .f32) (xs3 xs4 : Vec Ideal S1024x1024 .bf16) (x3 : Vec Ideal S1024x256 .f32)
    (xs0 : Vec Ideal S1024x1 .f32)
    (qr : Fin 1024 → Fin 1024 → ℝ) (kr : Fin 256 → Fin 1024 → ℝ) (ar : Fin 1024 → Fin 256 → ℝ)
    (hk : ∀ j e, x1 (ix2 j e) = ((kr j e : ℝ) : EReal)) (hq : ∀ r e, xs3 (ix2 r e) = ((qr r e : ℝ) : EReal))
    (hlo : ∀ r e, xs4 (ix2 r e) = ((0 : ℝ) : EReal)) (ha : ∀ r j, x3 (ix2 r j) = ((ar r j : ℝ) : EReal))
    (r : Fin 1024) :
    k0_pay12 (F := Ideal) x1 xs3 xs4 x3 xs0 (ix2 r (0 : Fin 1))
      = max (xs0 (ix2 r (0 : Fin 1)))
          ((Finset.univ : Finset (Fin 256)).fold max ⊥ (fun k => ((bmasked qr kr ar r k : ℝ) : EReal))) := by
  unfold k0_pay12
  rw [maximumf_apply, Keepdims.shapeCast_a_a1_apply, rowMax_apply,
    show (fun k : Fin 256 => k0_pay11 (F := Ideal) x1 xs3 xs4 x3 (ix2 r k)) = fun k => ((bmasked qr kr ar r k : ℝ) : EReal) from
      funext fun k => pay11_apply x1 xs3 xs4 x3 qr kr ar hk hq hlo ha r k]

/-- The new running maximum of row `r`, as a real. -/
def newMax (x1 : Vec Ideal S256x1024 .f32) (xs3 xs4 : Vec Ideal S1024x1024 .bf16) (x3 : Vec Ideal S1024x256 .f32)
    (xs0 : Vec Ideal S1024x1 .f32) (r : Fin 1024) : ℝ :=
  (k0_pay12 (F := Ideal) x1 xs3 xs4 x3 xs0 (ix2 r (0 : Fin 1))).toReal

/-- The new running maximum is a real whenever the old one is not `+∞`. -/
theorem pay12_apply (x1 : Vec Ideal S256x1024 .f32) (xs3 xs4 : Vec Ideal S1024x1024 .bf16) (x3 : Vec Ideal S1024x256 .f32)
    (xs0 : Vec Ideal S1024x1 .f32)
    (qr : Fin 1024 → Fin 1024 → ℝ) (kr : Fin 256 → Fin 1024 → ℝ) (ar : Fin 1024 → Fin 256 → ℝ)
    (hk : ∀ j e, x1 (ix2 j e) = ((kr j e : ℝ) : EReal)) (hq : ∀ r e, xs3 (ix2 r e) = ((qr r e : ℝ) : EReal))
    (hlo : ∀ r e, xs4 (ix2 r e) = ((0 : ℝ) : EReal)) (ha : ∀ r j, x3 (ix2 r j) = ((ar r j : ℝ) : EReal))
    (hm : ∀ r, xs0 (ix2 r (0 : Fin 1)) ≠ ⊤) (r : Fin 1024) :
    k0_pay12 (F := Ideal) x1 xs3 xs4 x3 xs0 (ix2 r (0 : Fin 1)) = ((newMax x1 xs3 xs4 x3 xs0 r : ℝ) : EReal) := by
  have hval := pay12_val x1 xs3 xs4 x3 xs0 qr kr ar hk hq hlo ha r
  have hfold_top := Cert.Lift.fold_max_ne_top (n := 256) ⊥ (by decide) (fun k => bmasked qr kr ar r k)
  have hfold_bot := Cert.Lift.fold_max_ne_bot (n := 256) (by decide) ⊥ (fun k => bmasked qr kr ar r k)
  unfold newMax
  refine Cert.Lift.eq_coe_toReal ?_ ?_
  · rw [hval]
    exact fun h => (max_eq_top.1 h).elim (hm r) hfold_top
  · rw [hval]
    exact fun h => hfold_bot (max_eq_bot.1 h).2

/-- The rescaling factor when the old maximum is a real. -/
theorem pay13_apply_real (x1 : Vec Ideal S256x1024 .f32) (xs3 xs4 : Vec Ideal S1024x1024 .bf16) (x3 : Vec Ideal S1024x256 .f32)
    (xs0 : Vec Ideal S1024x1 .f32)
    (qr : Fin 1024 → Fin 1024 → ℝ) (kr : Fin 256 → Fin 1024 → ℝ) (ar : Fin 1024 → Fin 256 → ℝ) (Mp : Fin 1024 → ℝ)
    (hk : ∀ j e, x1 (ix2 j e) = ((kr j e : ℝ) : EReal)) (hq : ∀ r e, xs3 (ix2 r e) = ((qr r e : ℝ) : EReal))
    (hlo : ∀ r e, xs4 (ix2 r e) = ((0 : ℝ) : EReal)) (ha : ∀ r j, x3 (ix2 r j) = ((ar r j : ℝ) : EReal))
    (hm : ∀ r, xs0 (ix2 r (0 : Fin 1)) = ((Mp r : ℝ) : EReal)) (r : Fin 1024) :
    k0_pay13 (F := Ideal) x1 xs3 xs4 x3 xs0 (ix2 r (0 : Fin 1)) = ((Real.exp (Mp r - newMax x1 xs3 xs4 x3 xs0 r) : ℝ) : EReal) := by
  have h12 := pay12_apply x1 xs3 xs4 x3 xs0 qr kr ar hk hq hlo ha (fun r => by rw [hm r]; exact EReal.coe_ne_top _) r
  unfold k0_pay13
  show Ideal.exp (xs0 (ix2 r (0 : Fin 1)) - k0_pay12 (F := Ideal) x1 xs3 xs4 x3 xs0 (ix2 r (0 : Fin 1))) = _
  rw [h12, hm r, ← EReal.coe_sub]
  rfl

/-- The rescaling factor at a row tile's first point, where the old maximum is `-∞`: zero. -/
theorem pay13_apply_bot (x1 : Vec Ideal S256x1024 .f32) (xs3 xs4 : Vec Ideal S1024x1024 .bf16) (x3 : Vec Ideal S1024x256 .f32)
    (xs0 : Vec Ideal S1024x1 .f32)
    (qr : Fin 1024 → Fin 1024 → ℝ) (kr : Fin 256 → Fin 1024 → ℝ) (ar : Fin 1024 → Fin 256 → ℝ)
    (hk : ∀ j e, x1 (ix2 j e) = ((kr j e : ℝ) : EReal)) (hq : ∀ r e, xs3 (ix2 r e) = ((qr r e : ℝ) : EReal))
    (hlo : ∀ r e, xs4 (ix2 r e) = ((0 : ℝ) : EReal)) (ha : ∀ r j, x3 (ix2 r j) = ((ar r j : ℝ) : EReal))
    (hm : ∀ r, xs0 (ix2 r (0 : Fin 1)) = ⊥) (r : Fin 1024) :
    k0_pay13 (F := Ideal) x1 xs3 xs4 x3 xs0 (ix2 r (0 : Fin 1)) = ((0 : ℝ) : EReal) := by
  have h12 := pay12_apply x1 xs3 xs4 x3 xs0 qr kr ar hk hq hlo ha (fun r => by rw [hm r]; exact bot_ne_top) r
  unfold k0_pay13
  show Ideal.exp (xs0 (ix2 r (0 : Fin 1)) - k0_pay12 (F := Ideal) x1 xs3 xs4 x3 xs0 (ix2 r (0 : Fin 1))) = _
  rw [h12, hm r, EReal.bot_sub, Ideal.exp_bot, EReal.coe_zero]

/-- The point's unnormalised weights. -/
theorem pay14_apply (x1 : Vec Ideal S256x1024 .f32) (xs3 xs4 : Vec Ideal S1024x1024 .bf16) (x3 : Vec Ideal S1024x256 .f32)
    (xs0 : Vec Ideal S1024x1 .f32)
    (qr : Fin 1024 → Fin 1024 → ℝ) (kr : Fin 256 → Fin 1024 → ℝ) (ar : Fin 1024 → Fin 256 → ℝ)
    (hk : ∀ j e, x1 (ix2 j e) = ((kr j e : ℝ) : EReal)) (hq : ∀ r e, xs3 (ix2 r e) = ((qr r e : ℝ) : EReal))
    (hlo : ∀ r e, xs4 (ix2 r e) = ((0 : ℝ) : EReal)) (ha : ∀ r j, x3 (ix2 r j) = ((ar r j : ℝ) : EReal))
    (hm : ∀ r, xs0 (ix2 r (0 : Fin 1)) ≠ ⊤) (r : Fin 1024) (j : Fin 256) :
    k0_pay14 (F := Ideal) x1 xs3 xs4 x3 xs0 (ix2 r j)
      = ((Real.exp (bmasked qr kr ar r j - newMax x1 xs3 xs4 x3 xs0 r) : ℝ) : EReal) := by
  have h12 := pay12_apply x1 xs3 xs4 x3 xs0 qr kr ar hk hq hlo ha hm r
  unfold k0_pay14
  show Ideal.exp (k0_pay11 (F := Ideal) x1 xs3 xs4 x3 (ix2 r j)
      - broadcastTo S1024x256 (k0_pay12 (F := Ideal) x1 xs3 xs4 x3 xs0) broadcasts_S1024x1_S1024x256 (ix2 r j)) = _
  rw [Keepdims.broadcastTo_a1_ab_apply, h12, pay11_apply x1 xs3 xs4 x3 qr kr ar hk hq hlo ha r j, ← EReal.coe_sub]
  rfl

end Cert.KernelIdeal.Payload

end
-- ==== Proof.PayloadAcc.lean ====
import proofs.«415173_j7224134992243_3_alg».proof.Proof.Gen.KernelIdeal.Skeleton
import proofs.«415173_j7224134992243_3_alg».proof.Proof.Spec
import proofs.«415173_j7224134992243_3_alg».proof.Proof.Consts
import proofs.«415173_j7224134992243_3_alg».proof.Proof.Lift
import proofs.«415173_j7224134992243_3_alg».proof.Proof.LibKeepdims
import Idealize.ShloMosaic.Lib.ValueIdx
import Idealize.ShloMosaic.Lib.ValueLayout
import Idealize.ShloMosaic.PureOps.Ideal.Laws
import Idealize.ShloMosaic.PureOps.IdealRules
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! The body's remaining stored values at the extended reals, read at an index: the normaliser, the accumulator, the
    stored maximum, the last point's output tile, the reset values and the cached query tile. -/

namespace Cert.KernelIdeal.Payload

open Cert.KernelIdeal Cert.KernelIdeal.Gen Idealize.ShloMosaic.ValueIdx Cert.Spec

/-- The new normaliser: the old one rescaled plus the row sum of the weights. -/
theorem pay1_apply (al : FVec Ideal S1024x1 .f32) (p : FVec Ideal S1024x256 .f32) (xs1 : Vec Ideal S1024x1 .f32)
    (alr : Fin 1024 → ℝ) (pr : Fin 1024 → Fin 256 → ℝ) (lr : Fin 1024 → ℝ)
    (hal : ∀ r, al (ix2 r (0 : Fin 1)) = ((alr r : ℝ) : EReal)) (hp : ∀ r j, p (ix2 r j) = ((pr r j : ℝ) : EReal))
    (hl : ∀ r, xs1 (ix2 r (0 : Fin 1)) = ((lr r : ℝ) : EReal)) (r : Fin 1024) :
    k0_pay1 (F := Ideal) al p xs1 (ix2 r (0 : Fin 1)) = ((alr r * lr r + ∑ j : Fin 256, pr r j : ℝ) : EReal) := by
  unfold k0_pay1
  refine (congrFun (shapeCast_self _ _) _).trans ?_
  show al (ix2 r (0 : Fin 1)) * xs1 (ix2 r (0 : Fin 1))
      + shapeCast S1024x1 (multiReduction (F := Ideal) .add [1] S1024 p 0x00000000#32 reduces_S1024x256_S1024 (.inl rfl) rfl)
          shapeCasts_S1024_S1024x1 (ix2 r (0 : Fin 1)) = _
  rw [hal, hl]
  refine (congrArg (_ + ·) ((Keepdims.shapeCast_a_a1_apply _ _ r 0).trans (Keepdims.laneSum_apply p _ _ _ _ r))).trans ?_
  rw [EReal.coe_add, EReal.coe_mul, Cert.Lift.coe_sum]
  exact congrArg (_ + ·) (Finset.sum_congr rfl fun k _ => hp r k)

/-! The weights times the value tile: the contraction runs over the weights' second axis and the values' first. -/

private theorem lhs_pv_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
private theorem lhs_pv_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
private theorem rhs_pv_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
private theorem rhs_pv_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- Into the zero accumulator the product at `(r, e)` is the sum over the 256 columns `k` of the left operand at
    `(r, k)` times the right operand at `(k, e)`. -/
private theorem matmul_pv_apply {φ₁ φ₂ : FTy} (a : FVec Ideal S1024x256 φ₁) (b : FVec Ideal S256x1024 φ₂) (r e : Fin 1024) :
    FloatOps.matmul dot_S1024x256_S256x1024_S1024x1024_1_0_0_1_n_n none a b (constant (F := Ideal) S1024x1024 .f32 0x00000000#32) (ix2 r e)
      = ∑ k : Fin 256, a (ix2 r k) * b (ix2 k e) := by
  rw [Ideal.matmul_constant_zero_apply, ← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 r e) ((contrEquiv1 dot_S1024x256_S256x1024_S1024x1024_1_0_0_1_n_n 256 rfl rfl).symm k) = ix2 r k := funext fun a => Fin.ext (by
    match a with
    | ⟨0, _⟩ => exact lhs_pv_0 _ _
    | ⟨1, _⟩ => exact (lhs_pv_1 _ _).trans hk)
  have er : dot_S1024x256_S256x1024_S1024x1024_1_0_0_1_n_n.rhsIdx (ix2 r e) ((contrEquiv1 dot_S1024x256_S256x1024_S1024x1024_1_0_0_1_n_n 256 rfl rfl).symm k) = ix2 k e := funext fun a => Fin.ext (by
    match a with
    | ⟨0, _⟩ => exact (rhs_pv_0 _ _).trans hk
    | ⟨1, _⟩ => exact rhs_pv_1 _ _)
  rw [el, er]

/-- A sum of products of two families of real values is the real sum of the products. -/
private theorem sum_mul_of_coe {n : ℕ} (f g : Fin n → EReal) (fr gr : Fin n → ℝ) (hf : ∀ k, f k = ((fr k : ℝ) : EReal))
    (hg : ∀ k, g k = ((gr k : ℝ) : EReal)) : ∑ k, f k * g k = ((∑ k, fr k * gr k : ℝ) : EReal) := by
  rw [← Cert.Lift.sum_mul_coe]
  exact Finset.sum_congr rfl fun k _ => by rw [hf k, hg k]

/-- The new accumulator: the old one rescaled plus the weights times the value tile. -/
theorem pay2_apply (al : FVec Ideal S1024x1 .f32) (p : FVec Ideal S1024x256 .f32) (x2 : Vec Ideal S256x1024 .f32)
    (xs2 : Vec Ideal S1024x1024 .f32)
    (alr : Fin 1024 → ℝ) (pr : Fin 1024 → Fin 256 → ℝ) (vr : Fin 256 → Fin 1024 → ℝ) (accr : Fin 1024 → Fin 1024 → ℝ)
    (hal : ∀ r, al (ix2 r (0 : Fin 1)) = ((alr r : ℝ) : EReal)) (hp : ∀ r j, p (ix2 r j) = ((pr r j : ℝ) : EReal))
    (hv : ∀ j e, x2 (ix2 j e) = ((vr j e : ℝ) : EReal)) (hacc : ∀ r e, xs2 (ix2 r e) = ((accr r e : ℝ) : EReal))
    (r e : Fin 1024) :
    k0_pay2 (F := Ideal) al p x2 xs2 (ix2 r e) = ((alr r * accr r e + ∑ j : Fin 256, pr r j * vr j e : ℝ) : EReal) := by
  unfold k0_pay2
  refine (congrFun (shapeCast_self _ _) _).trans ?_
  simp only [addf_apply, mulf_apply, matmul]
  have hV : ∀ k e, shapeCast S256x1024 x2 shapeCasts_S256x1024_S256x1024 (ix2 k e) = ((vr k e : ℝ) : EReal) :=
    fun k e => (congrFun (shapeCast_self _ _) _).trans (hv k e)
  generalize shapeCast S256x1024 x2 shapeCasts_S256x1024_S256x1024 = V at hV ⊢
  refine (congrArg₂ (· + ·)
    (congrArg₂ (· * ·) ((Keepdims.broadcastTo_a1_ab_apply al _ r e).trans (hal r)) (hacc r e))
    (congrArg₂ (· + ·)
      (congrArg₂ (· + ·)
        ((matmul_pv_apply (φ₁ := .bf16) (φ₂ := .bf16) _ _ r e).trans
          (sum_mul_of_coe _ _ (pr r) (fun k => vr k e) (fun k => hp r k) (fun k => hV k e)))
        ((matmul_pv_apply (φ₁ := .bf16) (φ₂ := .bf16) _ _ r e).trans
          (sum_mul_of_coe _ _ (pr r) (fun k => vr k e - vr k e) (fun k => hp r k) (fun k => ?_))))
      ((matmul_pv_apply (φ₁ := .bf16) (φ₂ := .bf16) _ _ r e).trans
        (sum_mul_of_coe _ _ (fun k => pr r k - pr r k) (fun k => vr k e) (fun k => ?_) (fun k => hV k e))))).trans ?_
  · show V (ix2 k e) - V (ix2 k e) = _
    rw [hV, ← EReal.coe_sub]
  · show p (ix2 r k) - p (ix2 r k) = _
    rw [hp, ← EReal.coe_sub]
  · rw [← EReal.coe_mul, ← EReal.coe_add, ← EReal.coe_add, ← EReal.coe_add]
    congr 1
    simp only [sub_self, mul_zero, zero_mul, Finset.sum_const_zero, add_zero]

/-- The stored maximum is the new maximum. -/
theorem pay3_eq (mn : FVec Ideal S1024x1 .f32) : k0_pay3 (F := Ideal) mn = mn := by
  unfold k0_pay3
  exact shapeCast_self _ _

/-! The normalised accumulator times the output weights: the contraction runs over the LAST axis of both operands, so
    the result at `(r, d)` pairs row `r` of the left operand with row `d` of the right one. -/

private theorem lhs_ow_0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
private theorem lhs_ow_1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
private theorem rhs_ow_0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
private theorem rhs_ow_1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- Into the zero accumulator the product at `(r, d)` is the sum over the 1024 columns `e` of the left operand at
    `(r, e)` times the right operand at `(d, e)`. -/
private theorem matmul_ow_apply {φ₁ φ₂ : FTy} (a : FVec Ideal S1024x1024 φ₁) (b : FVec Ideal S1024x1024 φ₂) (r d : Fin 1024) :
    FloatOps.matmul dot_S1024x1024_S1024x1024_S1024x1024_1_1_0_0_n_n none a b (constant (F := Ideal) S1024x1024 .f32 0x00000000#32) (ix2 r d)
      = ∑ e : Fin 1024, a (ix2 r e) * b (ix2 d e) := by
  rw [Ideal.matmul_constant_zero_apply, ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 r d) ((contrEquiv1 dot_S1024x1024_S1024x1024_S1024x1024_1_1_0_0_n_n 1024 rfl rfl).symm k) = ix2 r k := funext fun a => Fin.ext (by
    match a with
    | ⟨0, _⟩ => exact lhs_ow_0 _ _
    | ⟨1, _⟩ => exact (lhs_ow_1 _ _).trans hk)
  have er : dot_S1024x1024_S1024x1024_S1024x1024_1_1_0_0_n_n.rhsIdx (ix2 r d) ((contrEquiv1 dot_S1024x1024_S1024x1024_S1024x1024_1_1_0_0_n_n 1024 rfl rfl).symm k) = ix2 d k := funext fun a => Fin.ext (by
    match a with
    | ⟨0, _⟩ => exact rhs_ow_0 _ _
    | ⟨1, _⟩ => exact (rhs_ow_1 _ _).trans hk)
  rw [el, er]

/-- The last point's output tile: the accumulator over the normaliser, projected. -/
theorem pay4_apply (acc : Vec Ideal S1024x1024 .f32) (l : Vec Ideal S1024x1 .f32) (x4 : Vec Ideal S1024x1024 .bf16)
    (x5 : Vec Ideal S1x1024 .f32)
    (accr : Fin 1024 → Fin 1024 → ℝ) (lr : Fin 1024 → ℝ) (wr : Fin 1024 → Fin 1024 → ℝ) (br : Fin 1024 → ℝ)
    (hacc : ∀ r e, acc (ix2 r e) = ((accr r e : ℝ) : EReal)) (hl : ∀ r, l (ix2 r (0 : Fin 1)) = ((lr r : ℝ) : EReal))
    (hl0 : ∀ r, lr r ≠ 0)
    (hw : ∀ d e, x4 (ix2 d e) = ((wr d e : ℝ) : EReal)) (hb : ∀ d, x5 (ix2 (0 : Fin 1) d) = ((br d : ℝ) : EReal))
    (r d : Fin 1024) :
    k0_pay4 (F := Ideal) acc l x4 x5 (ix2 r d) = ((∑ e : Fin 1024, accr r e / lr r * wr d e + br d : ℝ) : EReal) := by
  unfold k0_pay4
  simp only [addf_apply, matmul]
  refine (congrArg₂ (· + ·)
    ((matmul_ow_apply (φ₁ := .bf16) (φ₂ := .bf16) _ _ r d).trans
      (sum_mul_of_coe _ _ (fun e => accr r e / lr r) (fun e => wr d e) (fun e => ?_) (fun e => ?_)))
    ((broadcastTo_1b_ab_apply _ _ r d).trans ((congrFun (shapeCast_self _ _) _).trans (hb d)))).trans ?_
  · show Ideal.div (acc (ix2 r e)) (broadcastTo S1024x1024 l broadcasts_S1024x1_S1024x1024 (ix2 r e)) = _
    rw [Keepdims.broadcastTo_a1_ab_apply, hacc, hl]
    exact Cert.Lift.div_coe_coe _ _ (hl0 r)
  · exact (congrFun (shapeCast_self _ _) _).trans (hw d e)
  · rw [← EReal.coe_add]

/-- The reset values of a row tile's first point. -/
theorem pay5_apply (r : Fin 1024) : k0_pay5 (F := Ideal) (ix2 r (0 : Fin 1)) = ⊥ := by
  unfold k0_pay5
  refine (congrFun (shapeCast_self _ _) _).trans ?_
  exact Cert.Consts.ofBits_negInf
theorem pay6_apply (r : Fin 1024) : k0_pay6 (F := Ideal) (ix2 r (0 : Fin 1)) = ((0 : ℝ) : EReal) := by
  unfold k0_pay6
  refine (congrFun (shapeCast_self _ _) _).trans ?_
  exact Cert.Consts.ofBits_zero.trans EReal.coe_zero.symm
theorem pay7_apply (r e : Fin 1024) : k0_pay7 (F := Ideal) (ix2 r e) = ((0 : ℝ) : EReal) := by
  unfold k0_pay7
  refine (congrFun (shapeCast_self _ _) _).trans ?_
  exact Cert.Consts.ofBits_zero.trans EReal.coe_zero.symm

/-- The cached query tile: its leading part is the tile itself, -/
theorem pay9_apply (x0 : Vec Ideal S1024x1024 .f32) (r e : Fin 1024) : k0_pay9 (F := Ideal) x0 (ix2 r e) = x0 (ix2 r e) := by
  unfold k0_pay9 k0_pay8
  refine (congrFun (shapeCast_self _ _) _).trans ?_
  show shapeCast S1024x1024 x0 shapeCasts_S1024x1024_S1024x1024 (ix2 r e) = x0 (ix2 r e)
  exact congrFun (shapeCast_self _ _) _
/-- and the residual of a real tile is zero. -/
theorem pay10_apply (x0 : Vec Ideal S1024x1024 .f32) (qr : Fin 1024 → Fin 1024 → ℝ)
    (h0 : ∀ r e, x0 (ix2 r e) = ((qr r e : ℝ) : EReal)) (r e : Fin 1024) :
    k0_pay10 (F := Ideal) x0 (ix2 r e) = ((0 : ℝ) : EReal) := by
  unfold k0_pay10 k0_pay8
  refine (congrFun (shapeCast_self _ _) _).trans ?_
  show shapeCast S1024x1024 x0 shapeCasts_S1024x1024_S1024x1024 (ix2 r e)
      - shapeCast S1024x1024 x0 shapeCasts_S1024x1024_S1024x1024 (ix2 r e) = ((0 : ℝ) : EReal)
  rw [shapeCast_self, h0, ← EReal.coe_sub, sub_self]

end Cert.KernelIdeal.Payload

end
-- ==== Proof.Holds.lean ====
/-
  Twelve arrays of extended reals that hold real arrays, the adjacency array a 0/1 mask.
-/
import proofs.«415173_j7224134992243_3_alg».proof.Proof.Spec
import Idealize.ShloMosaic.Lib.ValueIdx
import Mathlib.Data.EReal.Basic

noncomputable section

namespace Cert.Spec

open Idealize.ShloMosaic Idealize.ShloMosaic.ValueIdx

/-- The argument arrays hold the real arrays `I`, and `I`'s adjacency entries are 0 or 1. -/
structure Holds (I : Inputs)
    (x0 x1 x2 : (⟨2, ![8192, 1024]⟩ : Shape).Idx → EReal) (x3 : (⟨2, ![8192, 8192]⟩ : Shape).Idx → EReal)
    (x4 : (⟨2, ![1024, 1024]⟩ : Shape).Idx → EReal) (x5 : (⟨1, ![1024]⟩ : Shape).Idx → EReal)
    (x6 : (⟨2, ![1024, 1024]⟩ : Shape).Idx → EReal) (x7 : (⟨1, ![1024]⟩ : Shape).Idx → EReal)
    (x8 : (⟨2, ![1024, 1024]⟩ : Shape).Idx → EReal) (x9 : (⟨1, ![1024]⟩ : Shape).Idx → EReal)
    (x10 : (⟨2, ![1024, 1024]⟩ : Shape).Idx → EReal) (x11 : (⟨1, ![1024]⟩ : Shape).Idx → EReal) : Prop where
  query : ∀ n d, x0 (ix2 n d) = ((I.query n d : ℝ) : EReal)
  key : ∀ n d, x1 (ix2 n d) = ((I.key n d : ℝ) : EReal)
  value : ∀ n d, x2 (ix2 n d) = ((I.value n d : ℝ) : EReal)
  adj : ∀ n m, x3 (ix2 n m) = ((I.adj n m : ℝ) : EReal)
  Wq : ∀ e d, x4 (ix2 e d) = ((I.Wq e d : ℝ) : EReal)
  bq : ∀ e, x5 (ix1 e) = ((I.bq e : ℝ) : EReal)
  Wk : ∀ e d, x6 (ix2 e d) = ((I.Wk e d : ℝ) : EReal)
  bk : ∀ e, x7 (ix1 e) = ((I.bk e : ℝ) : EReal)
  Wv : ∀ e d, x8 (ix2 e d) = ((I.Wv e d : ℝ) : EReal)
  bv : ∀ e, x9 (ix1 e) = ((I.bv e : ℝ) : EReal)
  Wm : ∀ e d, x10 (ix2 e d) = ((I.Wm e d : ℝ) : EReal)
  bm : ∀ e, x11 (ix1 e) = ((I.bm e : ℝ) : EReal)
  mask : ∀ n m, I.adj n m = 0 ∨ I.adj n m = 1

end Cert.Spec

end
-- ==== Proof.KernelHostVals.lean ====
import proofs.«415173_j7224134992243_3_alg».proof.Proof.Gen.KernelIdeal.Frame
import proofs.«415173_j7224134992243_3_alg».proof.Proof.Holds
import proofs.«415173_j7224134992243_3_alg».proof.Proof.Lift
import Idealize.ShloMosaic.Lib.ValueIdx
import Idealize.ShloMosaic.Lib.StableHlo.Run
import Idealize.ShloMosaic.PureOps.Ideal.Laws
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! What the region finds in the arrays its windows stage, for launch arrays that hold reals: the three projected
    arrays are the specification's q, k and v; the output projection's weight, changed of format only, and its
    bias row, reshaped, hold what the arguments hold; the adjacency argument is untouched. -/

namespace Cert.KernelIdeal.HostVals

open Cert.KernelIdeal Cert.KernelIdeal.Gen Idealize.ShloMosaic.ValueIdx Cert.Spec

variable (m : (ℓ : Loc nD τ sig) → Buf (Elt Ideal) ℓ) (c : Dev nD) (I : Inputs)

/-- The launch memory's twelve argument arrays hold `I`. -/
abbrev HoldsAt : Prop :=
  Holds I (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))

/-- An affine projection as the host operations compute it: the product against the transposed weight, plus the bias
    row broadcast down the rows. -/
private abbrev projTerm (x : FVec Ideal S8192x1024 .f32) (W : FVec Ideal S1024x1024 .f32) (b : FVec Ideal S1024 .f32) :
    FVec Ideal S8192x1024 .f32 :=
  addf (Host.dotGeneral dot_S8192x1024_S1024x1024_S8192x1024_1_0_0_1_n_n none x
      (transpose S1024x1024 [1, 0] W transposes_S1024x1024_S1024x1024_1_0))
    (broadcastInDim S8192x1024 ![0, 1] bcast_S1x1024_S8192x1024_0_1 (broadcastInDim S1x1024 ![1] bcast_S1024_S1x1024_1 b))

/-! The product's operand indices at an output index and a contraction index, axis by axis. -/

private theorem lhs_axis0 (i : S8192x1024.Idx) (q : dot_S8192x1024_S1024x1024_S8192x1024_1_0_0_1_n_n.contr.Idx) :
    (dot_S8192x1024_S1024x1024_S8192x1024_1_0_0_1_n_n.lhsIdx i q 0).val = (i 0).val := by
  unfold DotDims.lhsIdx
  rw [dif_neg (show ¬(0 : Fin S8192x1024.rank) ∈ dot_S8192x1024_S1024x1024_S8192x1024_1_0_0_1_n_n.lhsBatch by decide), dif_pos (show (0 : Fin S8192x1024.rank) ∈ dot_S8192x1024_S1024x1024_S8192x1024_1_0_0_1_n_n.lhsNonContracting by decide)]
  rfl
private theorem lhs_axis1 (i : S8192x1024.Idx) (q : dot_S8192x1024_S1024x1024_S8192x1024_1_0_0_1_n_n.contr.Idx) :
    (dot_S8192x1024_S1024x1024_S8192x1024_1_0_0_1_n_n.lhsIdx i q 1).val = (q ⟨0, by decide⟩).val :=
  dot_S8192x1024_S1024x1024_S8192x1024_1_0_0_1_n_n.lhsIdx_val_of_single rfl i q
private theorem rhs_axis0 (i : S8192x1024.Idx) (q : dot_S8192x1024_S1024x1024_S8192x1024_1_0_0_1_n_n.contr.Idx) :
    (dot_S8192x1024_S1024x1024_S8192x1024_1_0_0_1_n_n.rhsIdx i q 0).val = (q ⟨0, by decide⟩).val :=
  dot_S8192x1024_S1024x1024_S8192x1024_1_0_0_1_n_n.rhsIdx_val_of_single rfl i q
private theorem rhs_axis1 (i : S8192x1024.Idx) (q : dot_S8192x1024_S1024x1024_S8192x1024_1_0_0_1_n_n.contr.Idx) :
    (dot_S8192x1024_S1024x1024_S8192x1024_1_0_0_1_n_n.rhsIdx i q 1).val = (i 1).val := by
  unfold DotDims.rhsIdx
  rw [dif_neg (show ¬(1 : Fin S1024x1024.rank) ∈ dot_S8192x1024_S1024x1024_S8192x1024_1_0_0_1_n_n.rhsBatch by decide), dif_pos (show (1 : Fin S1024x1024.rank) ∈ dot_S8192x1024_S1024x1024_S8192x1024_1_0_0_1_n_n.rhsNonContracting by decide)]
  rfl

/-- The product against a transposed weight at `(n, e)`: row `n` of the left operand against row `e` of the weight. -/
private theorem dot_transpose_apply (x : FVec Ideal S8192x1024 .f32) (W : FVec Ideal S1024x1024 .f32) (n : Fin 8192) (e : Fin 1024) :
    (Host.dotGeneral dot_S8192x1024_S1024x1024_S8192x1024_1_0_0_1_n_n none x
        (transpose S1024x1024 [1, 0] W transposes_S1024x1024_S1024x1024_1_0) : S8192x1024.Idx → EReal) (ix2 n e)
      = ∑ d : Fin 1024, x (ix2 n d) * W (ix2 e d) := by
  have ht : ∀ d : Fin 1024, (transpose S1024x1024 [1, 0] W transposes_S1024x1024_S1024x1024_1_0 : S1024x1024.Idx → EReal) (ix2 d e) = W (ix2 e d) :=
    fun d => transpose_apply [1, 0] W transposes_S1024x1024_S1024x1024_1_0 (ix2 d e) (ix2 e d) (fun b => match b with
      | ⟨0, _⟩ => rfl
      | ⟨1, _⟩ => rfl)
  generalize transpose S1024x1024 [1, 0] W transposes_S1024x1024_S1024x1024_1_0 = y at ht
  simp only [Host.dotGeneral]
  rw [Ideal.dotGeneral_apply, ← Equiv.sum_comp (ValueIdx.contrEquiv1 dot_S8192x1024_S1024x1024_S8192x1024_1_0_0_1_n_n 1024 rfl rfl).symm]
  refine Finset.sum_congr rfl fun d _ => ?_
  have hd := ValueIdx.contrEquiv1_symm_val dot_S8192x1024_S1024x1024_S8192x1024_1_0_0_1_n_n 1024 rfl rfl d
  have el : dot_S8192x1024_S1024x1024_S8192x1024_1_0_0_1_n_n.lhsIdx (ix2 n e) ((ValueIdx.contrEquiv1 dot_S8192x1024_S1024x1024_S8192x1024_1_0_0_1_n_n 1024 rfl rfl).symm d) = ix2 n d := funext fun a => Fin.ext (by
    match a with
    | ⟨0, _⟩ => exact lhs_axis0 _ _
    | ⟨1, _⟩ => exact (lhs_axis1 _ _).trans hd)
  have er : dot_S8192x1024_S1024x1024_S8192x1024_1_0_0_1_n_n.rhsIdx (ix2 n e) ((ValueIdx.contrEquiv1 dot_S8192x1024_S1024x1024_S8192x1024_1_0_0_1_n_n 1024 rfl rfl).symm d) = ix2 d e := funext fun a => Fin.ext (by
    match a with
    | ⟨0, _⟩ => exact (rhs_axis0 _ _).trans hd
    | ⟨1, _⟩ => exact rhs_axis1 _ _)
  rw [el, er, ht]

/-- The bias row broadcast down the rows, at `(n, e)`: the bias at `e`. -/
private theorem bias_apply (b : FVec Ideal S1024 .f32) (n : Fin 8192) (e : Fin 1024) :
    (broadcastInDim S8192x1024 ![0, 1] bcast_S1x1024_S8192x1024_0_1 (broadcastInDim S1x1024 ![1] bcast_S1024_S1x1024_1 b) : S8192x1024.Idx → EReal) (ix2 n e)
      = b (ix1 e) :=
  (broadcastInDim_apply _ bcast_S1x1024_S8192x1024_0_1 (broadcastInDim S1x1024 ![1] bcast_S1024_S1x1024_1 b) (ix2 n e) (ix2 (0 : Fin 1) e) (fun a => match a with
    | ⟨0, _⟩ => by show 0 = if (1 : Nat) = 1 then 0 else (n : ℕ); rw [if_pos rfl]
    | ⟨1, _⟩ => by show (e : ℕ) = if (1024 : Nat) = 1 then 0 else (e : ℕ); rw [if_neg (by decide)])).trans
  (broadcastInDim_apply _ bcast_S1024_S1x1024_1 b (ix2 (0 : Fin 1) e) (ix1 e) (fun a => match a with
    | ⟨0, _⟩ => by show (e : ℕ) = if (1024 : Nat) = 1 then 0 else (e : ℕ); rw [if_neg (by decide)]))

/-- Over operands that hold reals, the projection's term at `(n, e)` is the specification's projection. -/
private theorem proj_apply (x : FVec Ideal S8192x1024 .f32) (W : FVec Ideal S1024x1024 .f32) (b : FVec Ideal S1024 .f32)
    (xr : Fin 8192 → Fin 1024 → ℝ) (Wr : Fin 1024 → Fin 1024 → ℝ) (br : Fin 1024 → ℝ)
    (hx : ∀ n d, x (ix2 n d) = ((xr n d : ℝ) : EReal)) (hW : ∀ e d, W (ix2 e d) = ((Wr e d : ℝ) : EReal))
    (hb : ∀ e, b (ix1 e) = ((br e : ℝ) : EReal)) (n : Fin 8192) (e : Fin 1024) :
    (projTerm x W b : S8192x1024.Idx → EReal) (ix2 n e) = ((proj xr Wr br n e : ℝ) : EReal) := by
  show (Host.dotGeneral dot_S8192x1024_S1024x1024_S8192x1024_1_0_0_1_n_n none x
      (transpose S1024x1024 [1, 0] W transposes_S1024x1024_S1024x1024_1_0) (ix2 n e) : EReal)
    + (broadcastInDim S8192x1024 ![0, 1] bcast_S1x1024_S8192x1024_0_1 (broadcastInDim S1x1024 ![1] bcast_S1024_S1x1024_1 b) (ix2 n e) : EReal) = _
  rw [dot_transpose_apply, bias_apply, hb]
  simp only [hx, hW]
  rw [Cert.Lift.sum_mul_coe, ← EReal.coe_add]
  rfl

theorem V_q (hH : HoldsAt m c I) (n : Fin 8192) (e : Fin 1024) :
    (V m c main_v4 : S8192x1024.Idx → EReal) (ix2 n e) = ((q I n e : ℝ) : EReal) := by
  have ev : (V m c main_v4 : S8192x1024.Idx → EReal) =
      projTerm (m ((c.tc : Thread nD τ).loc main_arg0)) (m ((c.tc : Thread nD τ).loc main_arg4)) (m ((c.tc : Thread nD τ).loc main_arg5)) := by
    dsimp only [Gen.V, Gen.hostOps0]; after_results <;> rfl
  rw [ev]
  exact proj_apply _ _ _ I.query I.Wq I.bq hH.query hH.Wq hH.bq n e

theorem V_k (hH : HoldsAt m c I) (n : Fin 8192) (e : Fin 1024) :
    (V m c main_v9 : S8192x1024.Idx → EReal) (ix2 n e) = ((k I n e : ℝ) : EReal) := by
  have ev : (V m c main_v9 : S8192x1024.Idx → EReal) =
      projTerm (m ((c.tc : Thread nD τ).loc main_arg1)) (m ((c.tc : Thread nD τ).loc main_arg6)) (m ((c.tc : Thread nD τ).loc main_arg7)) := by
    dsimp only [Gen.V, Gen.hostOps0]; after_results <;> rfl
  rw [ev]
  exact proj_apply _ _ _ I.key I.Wk I.bk hH.key hH.Wk hH.bk n e

theorem V_v (hH : HoldsAt m c I) (n : Fin 8192) (e : Fin 1024) :
    (V m c main_v14 : S8192x1024.Idx → EReal) (ix2 n e) = ((v I n e : ℝ) : EReal) := by
  have ev : (V m c main_v14 : S8192x1024.Idx → EReal) =
      projTerm (m ((c.tc : Thread nD τ).loc main_arg2)) (m ((c.tc : Thread nD τ).loc main_arg8)) (m ((c.tc : Thread nD τ).loc main_arg9)) := by
    dsimp only [Gen.V, Gen.hostOps0]; after_results <;> rfl
  rw [ev]
  exact proj_apply _ _ _ I.value I.Wv I.bv hH.value hH.Wv hH.bv n e

theorem V_adj (hH : HoldsAt m c I) (n n' : Fin 8192) :
    (V m c main_arg3 : S8192x8192.Idx → EReal) (ix2 n n') = ((I.adj n n' : ℝ) : EReal) := by
  rw [V_main_arg3 m c]
  exact hH.adj n n'

theorem V_wm (hH : HoldsAt m c I) (d e : Fin 1024) :
    (V m c main_v15 : S1024x1024.Idx → EReal) (ix2 d e) = ((I.Wm d e : ℝ) : EReal) := by
  have ev : (V m c main_v15 : S1024x1024.Idx → EReal) =
      truncf (F := Ideal) .bf16 (m ((c.tc : Thread nD τ).loc main_arg10)) bitsLt_bf16_f32 := by
    dsimp only [Gen.V, Gen.hostOps0]; after_results <;> rfl
  rw [ev, truncf_apply]
  exact hH.Wm d e

theorem V_bm (hH : HoldsAt m c I) (d : Fin 1024) :
    (V m c main_v16 : S1x1024.Idx → EReal) (ix2 (0 : Fin 1) d) = ((I.bm d : ℝ) : EReal) := by
  have ev : (V m c main_v16 : S1x1024.Idx → EReal) =
      shapeCast S1x1024 (m ((c.tc : Thread nD τ).loc main_arg11)) shapeCasts_S1024_S1x1024 := by
    dsimp only [Gen.V, Gen.hostOps0]; after_results <;> rfl
  rw [ev, shapeCast_apply (m ((c.tc : Thread nD τ).loc main_arg11)) shapeCasts_S1024_S1x1024 (ix2 (0 : Fin 1) d) (ix1 d)
    (by
      show (S1024.rowMajor (ix1 d)).val = (S1x1024.rowMajor (ix2 (0 : Fin 1) d)).val
      rw [Shape.rowMajor_val_one, Shape.rowMajor_val_two]
      show (d : ℕ) = 0 * 1024 + (d : ℕ)
      omega)]
  exact hH.bm d

end Cert.KernelIdeal.HostVals

end
-- ==== Proof.SoftmaxReal.lean ====
/-
  Real-number facts behind a softmax accumulated tile by tile. A sum of exponentials shifted by M, multiplied by
  exp (M − M'), is the same sum shifted by M'; a sum over the first 256·(k+1) columns is the sum over the first
  256·k plus the sum over column tile k; and a ratio of two sums shifted by the same M does not depend on M, so
  the accumulated numerator over the accumulated normaliser is the specification's attention output, as is the
  reference's sum of normalised weights times v.
-/
import proofs.«415173_j7224134992243_3_alg».proof.Proof.Spec
import Mathlib.Algebra.BigOperators.Field
import Mathlib.Algebra.BigOperators.Fin
import Mathlib.Algebra.Order.BigOperators.Ring.Finset

noncomputable section

namespace Cert.Spec

open Finset

/-- A common real shift of the exponents cancels between a weighted sum and its normaliser. -/
theorem weighted_shift {ι : Type*} (s : Finset ι) (a w : ι → ℝ) (M : ℝ) :
    (∑ j ∈ s, Real.exp (a j - M) * w j) / (∑ j ∈ s, Real.exp (a j - M))
      = (∑ j ∈ s, Real.exp (a j) * w j) / (∑ j ∈ s, Real.exp (a j)) := by
  have h1 : ∑ j ∈ s, Real.exp (a j - M) * w j = Real.exp (-M) * ∑ j ∈ s, Real.exp (a j) * w j := by
    rw [Finset.mul_sum]; refine Finset.sum_congr rfl fun j _ => ?_
    rw [sub_eq_add_neg, Real.exp_add]; ring
  have h2 : ∑ j ∈ s, Real.exp (a j - M) = Real.exp (-M) * ∑ j ∈ s, Real.exp (a j) := by
    rw [Finset.mul_sum]; refine Finset.sum_congr rfl fun j _ => ?_
    rw [sub_eq_add_neg, Real.exp_add]; ring
  rw [h1, h2, mul_div_mul_left _ _ (Real.exp_pos _).ne']

/-- Weights normalised term by term, then summed against `w`, are the weighted sum over the normaliser. -/
theorem normalized_sum {ι : Type*} (s : Finset ι) (ex w : ι → ℝ) (L : ℝ) :
    ∑ j ∈ s, ex j / L * w j = (∑ j ∈ s, ex j * w j) / L := by
  rw [Finset.sum_div]; exact Finset.sum_congr rfl fun j _ => by ring

variable (I : Inputs)

theorem pre_zero (n : Fin 8192) (M : ℝ) : pre I n M 0 = 0 := by unfold pre; simp
theorem preV_zero (n : Fin 8192) (e : Fin 1024) (M : ℝ) : preV I n e M 0 = 0 := by unfold preV; simp

/-- Moving the shift from M to M'. -/
theorem pre_rescale (n : Fin 8192) (M M' : ℝ) (cnt : ℕ) : Real.exp (M - M') * pre I n M cnt = pre I n M' cnt := by
  unfold pre
  rw [Finset.mul_sum]; refine Finset.sum_congr rfl fun j _ => ?_
  rw [← Real.exp_add]; congr 1; ring

theorem preV_rescale (n : Fin 8192) (e : Fin 1024) (M M' : ℝ) (cnt : ℕ) :
    Real.exp (M - M') * preV I n e M cnt = preV I n e M' cnt := by
  unfold preV
  rw [Finset.mul_sum]; refine Finset.sum_congr rfl fun j _ => ?_
  rw [← mul_assoc, ← Real.exp_add]
  have h : M - M' + (maskedN I n j - M) = maskedN I n j - M' := by ring
  rw [h]

theorem maskedN_col (n : Fin 8192) (ki : Fin 32) (j : Fin 256) : maskedN I n (256 * ki.val + j.val) = masked I n (col ki j) := by
  unfold maskedN
  rw [dif_pos (by have := ki.isLt; have := j.isLt; omega)]
  rfl

theorem vN_col (e : Fin 1024) (ki : Fin 32) (j : Fin 256) : vN I e (256 * ki.val + j.val) = v I (col ki j) e := by
  unfold vN
  rw [dif_pos (by have := ki.isLt; have := j.isLt; omega)]
  rfl

/-- One more column tile. -/
theorem pre_block (n : Fin 8192) (M : ℝ) (ki : Fin 32) :
    pre I n M (256 * (ki.val + 1)) = pre I n M (256 * ki.val) + ∑ j : Fin 256, Real.exp (masked I n (col ki j) - M) := by
  unfold pre
  rw [show 256 * (ki.val + 1) = 256 * ki.val + 256 by ring, Finset.sum_range_add]
  congr 1
  rw [Finset.sum_range]
  exact Finset.sum_congr rfl fun j _ => by rw [maskedN_col]

theorem preV_block (n : Fin 8192) (e : Fin 1024) (M : ℝ) (ki : Fin 32) :
    preV I n e M (256 * (ki.val + 1))
      = preV I n e M (256 * ki.val) + ∑ j : Fin 256, Real.exp (masked I n (col ki j) - M) * v I (col ki j) e := by
  unfold preV
  rw [show 256 * (ki.val + 1) = 256 * ki.val + 256 by ring, Finset.sum_range_add]
  congr 1
  rw [Finset.sum_range]
  exact Finset.sum_congr rfl fun j _ => by rw [maskedN_col, vN_col]

theorem pre_pos (n : Fin 8192) (M : ℝ) (cnt : ℕ) (h : 0 < cnt) : 0 < pre I n M cnt :=
  Finset.sum_pos (fun j _ => Real.exp_pos _) (Finset.nonempty_range_iff.mpr (Nat.ne_of_gt h))

theorem pre_full (n : Fin 8192) (M : ℝ) : pre I n M 8192 = ∑ m : Fin 8192, Real.exp (masked I n m - M) := by
  unfold pre
  rw [Finset.sum_range]
  refine Finset.sum_congr rfl fun m _ => ?_
  unfold maskedN
  rw [dif_pos m.isLt]

theorem preV_full (n : Fin 8192) (e : Fin 1024) (M : ℝ) :
    preV I n e M 8192 = ∑ m : Fin 8192, Real.exp (masked I n m - M) * v I m e := by
  unfold preV
  rw [Finset.sum_range]
  refine Finset.sum_congr rfl fun m _ => ?_
  unfold maskedN vN
  rw [dif_pos m.isLt, dif_pos m.isLt]

/-- The accumulated numerator over the accumulated normaliser, whatever the final shift, is the attention output. -/
theorem x_of_pre (n : Fin 8192) (e : Fin 1024) (M : ℝ) : preV I n e M 8192 / pre I n M 8192 = x I n e := by
  rw [pre_full, preV_full]
  unfold x E
  exact weighted_shift Finset.univ (masked I n) (fun m => v I m e) M

/-- The reference's form: weights normalised first, whatever the shift. -/
theorem x_of_normalized (n : Fin 8192) (e : Fin 1024) (M : ℝ) :
    ∑ m : Fin 8192, Real.exp (masked I n m - M) / (∑ i : Fin 8192, Real.exp (masked I n i - M)) * v I m e = x I n e := by
  rw [normalized_sum]
  unfold x E
  exact weighted_shift Finset.univ (masked I n) (fun m => v I m e) M

end Cert.Spec

end
-- ==== Proof.KernelInvariant.lean ====
import proofs.«415173_j7224134992243_3_alg».proof.Proof.KernelCases
import proofs.«415173_j7224134992243_3_alg».proof.Proof.PayloadScore
import proofs.«415173_j7224134992243_3_alg».proof.Proof.PayloadAcc
import proofs.«415173_j7224134992243_3_alg».proof.Proof.KernelHostVals
import proofs.«415173_j7224134992243_3_alg».proof.Proof.SoftmaxReal
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! The running state of the softmax accumulated over a row tile's column tiles. After the point of column tile `ki`
    the carried scratch holds, row by row, some real shift `M`, the normaliser ∑ exp (a − M) and the weighted sums
    ∑ exp (a − M)·v over the first 256·(ki+1) columns, the cached query tile and a zero residual. One point moves the
    shift to the new maximum: the old sums are multiplied by exp (M − M') and the tile's terms are added. At a row
    tile's last point the output tile is the accumulator over the normaliser, projected: the specification's result. -/

namespace Cert.KernelIdeal.Inv

open Cert.KernelIdeal Cert.KernelIdeal.Gen Cert.KernelIdeal.Blocks Cert.KernelIdeal.Cases Cert.KernelIdeal.Payload
open Cert.KernelIdeal.HostVals Idealize.ShloMosaic.ValueIdx Cert.Spec

variable (I : Inputs)

/-- One point after the first of a row tile. -/
theorem step (qi : Fin 8) (ki : Fin 32)
    (x1 x2 : Vec Ideal S256x1024 .f32) (x3 : Vec Ideal S1024x256 .f32)
    (xs0 xs1 : Vec Ideal S1024x1 .f32) (xs2 : Vec Ideal S1024x1024 .f32) (xs3 xs4 : Vec Ideal S1024x1024 .bf16)
    (hk : ∀ j e, x1 (ix2 j e) = ((k I (col ki j) e : ℝ) : EReal))
    (hv : ∀ j e, x2 (ix2 j e) = ((v I (col ki j) e : ℝ) : EReal))
    (ha : ∀ r j, x3 (ix2 r j) = ((I.adj (row qi r) (col ki j) : ℝ) : EReal))
    (hq : ∀ r e, xs3 (ix2 r e) = ((q I (row qi r) e : ℝ) : EReal))
    (hlo : ∀ r e, xs4 (ix2 r e) = ((0 : ℝ) : EReal))
    (Mp : Fin 1024 → ℝ) (hm : ∀ r, xs0 (ix2 r (0 : Fin 1)) = ((Mp r : ℝ) : EReal))
    (hl : ∀ r, xs1 (ix2 r (0 : Fin 1)) = ((pre I (row qi r) (Mp r) (256 * ki.val) : ℝ) : EReal))
    (hacc : ∀ r e, xs2 (ix2 r e) = ((preV I (row qi r) e (Mp r) (256 * ki.val) : ℝ) : EReal)) :
    ∃ Mx : Fin 1024 → ℝ,
      (∀ r, k0_pay3 (F := Ideal) (k0_pay12 x1 xs3 xs4 x3 xs0) (ix2 r (0 : Fin 1)) = ((Mx r : ℝ) : EReal)) ∧
      (∀ r, k0_pay1 (F := Ideal) (k0_pay13 x1 xs3 xs4 x3 xs0) (k0_pay14 x1 xs3 xs4 x3 xs0) xs1 (ix2 r (0 : Fin 1))
          = ((pre I (row qi r) (Mx r) (256 * (ki.val + 1)) : ℝ) : EReal)) ∧
      (∀ r e, k0_pay2 (F := Ideal) (k0_pay13 x1 xs3 xs4 x3 xs0) (k0_pay14 x1 xs3 xs4 x3 xs0) x2 xs2 (ix2 r e)
          = ((preV I (row qi r) e (Mx r) (256 * (ki.val + 1)) : ℝ) : EReal)) := by
  have hm' : ∀ r, xs0 (ix2 r (0 : Fin 1)) ≠ ⊤ := fun r => by rw [hm]; exact EReal.coe_ne_top _
  refine ⟨newMax x1 xs3 xs4 x3 xs0, fun r => ?_, fun r => ?_, fun r e => ?_⟩
  · rw [pay3_eq]
    exact pay12_apply x1 xs3 xs4 x3 xs0 (fun r e => q I (row qi r) e) (fun j e => k I (col ki j) e)
      (fun r j => I.adj (row qi r) (col ki j)) hk hq hlo ha hm' r
  · rw [pay1_apply (k0_pay13 x1 xs3 xs4 x3 xs0) (k0_pay14 x1 xs3 xs4 x3 xs0) xs1
      (fun r => Real.exp (Mp r - newMax x1 xs3 xs4 x3 xs0 r))
      (fun r j => Real.exp (bmasked (fun r e => q I (row qi r) e) (fun j e => k I (col ki j) e)
        (fun r j => I.adj (row qi r) (col ki j)) r j - newMax x1 xs3 xs4 x3 xs0 r))
      (fun r => pre I (row qi r) (Mp r) (256 * ki.val))
      (pay13_apply_real x1 xs3 xs4 x3 xs0 _ _ _ Mp hk hq hlo ha hm) (pay14_apply x1 xs3 xs4 x3 xs0 _ _ _ hk hq hlo ha hm') hl r]
    congr 1
    show Real.exp (Mp r - newMax x1 xs3 xs4 x3 xs0 r) * pre I (row qi r) (Mp r) (256 * ki.val) + _ = _
    rw [pre_rescale, pre_block]
    rfl
  · rw [pay2_apply (k0_pay13 x1 xs3 xs4 x3 xs0) (k0_pay14 x1 xs3 xs4 x3 xs0) x2 xs2
      (fun r => Real.exp (Mp r - newMax x1 xs3 xs4 x3 xs0 r))
      (fun r j => Real.exp (bmasked (fun r e => q I (row qi r) e) (fun j e => k I (col ki j) e)
        (fun r j => I.adj (row qi r) (col ki j)) r j - newMax x1 xs3 xs4 x3 xs0 r))
      (fun j e => v I (col ki j) e)
      (fun r e => preV I (row qi r) e (Mp r) (256 * ki.val))
      (pay13_apply_real x1 xs3 xs4 x3 xs0 _ _ _ Mp hk hq hlo ha hm) (pay14_apply x1 xs3 xs4 x3 xs0 _ _ _ hk hq hlo ha hm') hv hacc r e]
    congr 1
    show Real.exp (Mp r - newMax x1 xs3 xs4 x3 xs0 r) * preV I (row qi r) e (Mp r) (256 * ki.val) + _ = _
    rw [preV_rescale, preV_block]
    rfl

/-- A row tile's first point: the scratch is reset first, so the old sums are empty and the rescaling factor is zero. -/
theorem step_first (qi : Fin 8)
    (x0 : Vec Ideal S1024x1024 .f32) (x1 x2 : Vec Ideal S256x1024 .f32) (x3 : Vec Ideal S1024x256 .f32)
    (hq0 : ∀ r e, x0 (ix2 r e) = ((q I (row qi r) e : ℝ) : EReal))
    (hk : ∀ j e, x1 (ix2 j e) = ((k I (col (0 : Fin 32) j) e : ℝ) : EReal))
    (hv : ∀ j e, x2 (ix2 j e) = ((v I (col (0 : Fin 32) j) e : ℝ) : EReal))
    (ha : ∀ r j, x3 (ix2 r j) = ((I.adj (row qi r) (col (0 : Fin 32) j) : ℝ) : EReal)) :
    ∃ Mx : Fin 1024 → ℝ,
      (∀ r, k0_pay3 (F := Ideal) (k0_pay12 x1 (k0_pay9 x0) (k0_pay10 x0) x3 (k0_pay5 (F := Ideal))) (ix2 r (0 : Fin 1)) = ((Mx r : ℝ) : EReal)) ∧
      (∀ r, k0_pay1 (F := Ideal) (k0_pay13 x1 (k0_pay9 x0) (k0_pay10 x0) x3 (k0_pay5 (F := Ideal))) (k0_pay14 x1 (k0_pay9 x0) (k0_pay10 x0) x3 (k0_pay5 (F := Ideal))) (k0_pay6 (F := Ideal)) (ix2 r (0 : Fin 1))
          = ((pre I (row qi r) (Mx r) (256 * ((0 : Fin 32).val + 1)) : ℝ) : EReal)) ∧
      (∀ r e, k0_pay2 (F := Ideal) (k0_pay13 x1 (k0_pay9 x0) (k0_pay10 x0) x3 (k0_pay5 (F := Ideal))) (k0_pay14 x1 (k0_pay9 x0) (k0_pay10 x0) x3 (k0_pay5 (F := Ideal))) x2 (k0_pay7 (F := Ideal)) (ix2 r e)
          = ((preV I (row qi r) e (Mx r) (256 * ((0 : Fin 32).val + 1)) : ℝ) : EReal)) ∧
      (∀ r e, k0_pay9 (F := Ideal) x0 (ix2 r e) = ((q I (row qi r) e : ℝ) : EReal)) ∧
      (∀ r e, k0_pay10 (F := Ideal) x0 (ix2 r e) = ((0 : ℝ) : EReal)) := by
  have hq : ∀ r e, k0_pay9 (F := Ideal) x0 (ix2 r e) = ((q I (row qi r) e : ℝ) : EReal) := fun r e => by
    rw [pay9_apply]; exact hq0 r e
  have hlo : ∀ r e, k0_pay10 (F := Ideal) x0 (ix2 r e) = ((0 : ℝ) : EReal) :=
    fun r e => pay10_apply x0 (fun r e => q I (row qi r) e) hq0 r e
  have hm : ∀ r, k0_pay5 (F := Ideal) (ix2 r (0 : Fin 1)) = ⊥ := pay5_apply
  have hm' : ∀ r, k0_pay5 (F := Ideal) (ix2 r (0 : Fin 1)) ≠ ⊤ := fun r => by rw [hm]; exact bot_ne_top
  refine ⟨newMax x1 (k0_pay9 x0) (k0_pay10 x0) x3 (k0_pay5 (F := Ideal)), fun r => ?_, fun r => ?_, fun r e => ?_, hq, hlo⟩
  · rw [pay3_eq]
    exact pay12_apply x1 (k0_pay9 x0) (k0_pay10 x0) x3 (k0_pay5 (F := Ideal)) (fun r e => q I (row qi r) e) (fun j e => k I (col (0 : Fin 32) j) e)
      (fun r j => I.adj (row qi r) (col (0 : Fin 32) j)) hk hq hlo ha hm' r
  · rw [pay1_apply (k0_pay13 x1 (k0_pay9 x0) (k0_pay10 x0) x3 (k0_pay5 (F := Ideal))) (k0_pay14 x1 (k0_pay9 x0) (k0_pay10 x0) x3 (k0_pay5 (F := Ideal))) (k0_pay6 (F := Ideal))
      (fun _ => 0)
      (fun r j => Real.exp (bmasked (fun r e => q I (row qi r) e) (fun j e => k I (col (0 : Fin 32) j) e)
        (fun r j => I.adj (row qi r) (col (0 : Fin 32) j)) r j - newMax x1 (k0_pay9 x0) (k0_pay10 x0) x3 (k0_pay5 (F := Ideal)) r))
      (fun _ => 0)
      (pay13_apply_bot x1 (k0_pay9 x0) (k0_pay10 x0) x3 (k0_pay5 (F := Ideal)) _ _ _ hk hq hlo ha hm) (pay14_apply x1 (k0_pay9 x0) (k0_pay10 x0) x3 (k0_pay5 (F := Ideal)) _ _ _ hk hq hlo ha hm') pay6_apply r]
    congr 1
    rw [pre_block I (row qi r) _ (0 : Fin 32), show 256 * (0 : Fin 32).val = 0 from rfl, pre_zero, mul_zero]
    rfl
  · rw [pay2_apply (k0_pay13 x1 (k0_pay9 x0) (k0_pay10 x0) x3 (k0_pay5 (F := Ideal))) (k0_pay14 x1 (k0_pay9 x0) (k0_pay10 x0) x3 (k0_pay5 (F := Ideal))) x2 (k0_pay7 (F := Ideal))
      (fun _ => 0)
      (fun r j => Real.exp (bmasked (fun r e => q I (row qi r) e) (fun j e => k I (col (0 : Fin 32) j) e)
        (fun r j => I.adj (row qi r) (col (0 : Fin 32) j)) r j - newMax x1 (k0_pay9 x0) (k0_pay10 x0) x3 (k0_pay5 (F := Ideal)) r))
      (fun j e => v I (col (0 : Fin 32) j) e)
      (fun _ _ => 0)
      (pay13_apply_bot x1 (k0_pay9 x0) (k0_pay10 x0) x3 (k0_pay5 (F := Ideal)) _ _ _ hk hq hlo ha hm) (pay14_apply x1 (k0_pay9 x0) (k0_pay10 x0) x3 (k0_pay5 (F := Ideal)) _ _ _ hk hq hlo ha hm') hv pay7_apply r e]
    congr 1
    rw [preV_block I (row qi r) e _ (0 : Fin 32), show 256 * (0 : Fin 32).val = 0 from rfl, preV_zero, mul_zero]
    rfl

variable (m : (ℓ : Loc nD τ sig) → Buf (Elt Ideal) ℓ) (c : Dev nD)

/-- What the carried scratch holds after point `n`. -/
def Good (n : ℕ) (hn : n < cfg0.N) : Prop :=
  ∃ Mx : Fin 1024 → ℝ,
    (∀ r, ((outsAt0 m c n hn).2.1 : S1024x1.Idx → EReal) (ix2 r (0 : Fin 1)) = ((Mx r : ℝ) : EReal)) ∧
    (∀ r, ((outsAt0 m c n hn).2.2.1 : S1024x1.Idx → EReal) (ix2 r (0 : Fin 1))
        = ((pre I (row (qiOf ⟨n, hn⟩) r) (Mx r) (256 * (n % 32 + 1)) : ℝ) : EReal)) ∧
    (∀ r e, ((outsAt0 m c n hn).2.2.2.1 : S1024x1024.Idx → EReal) (ix2 r e)
        = ((preV I (row (qiOf ⟨n, hn⟩) r) e (Mx r) (256 * (n % 32 + 1)) : ℝ) : EReal)) ∧
    (∀ r e, ((outsAt0 m c n hn).2.2.2.2.1 : S1024x1024.Idx → EReal) (ix2 r e) = ((q I (row (qiOf ⟨n, hn⟩) r) e : ℝ) : EReal)) ∧
    (∀ r e, ((outsAt0 m c n hn).2.2.2.2.2 : S1024x1024.Idx → EReal) (ix2 r e) = ((0 : ℝ) : EReal))

section
variable (hH : HoldsAt m c I)
include hH

theorem hkblk (t : Fin cfg0.N) (j : Fin 256) (e : Fin 1024) :
    kblk m c t (ix2 j e) = ((k I (col (kiOf t) j) e : ℝ) : EReal) :=
  (kblk_apply m c t j e).trans (V_k m c I hH _ _)
theorem hvblk (t : Fin cfg0.N) (j : Fin 256) (e : Fin 1024) :
    vblk m c t (ix2 j e) = ((v I (col (kiOf t) j) e : ℝ) : EReal) :=
  (vblk_apply m c t j e).trans (V_v m c I hH _ _)
theorem hqblk (t : Fin cfg0.N) (r e : Fin 1024) :
    qblk m c t (ix2 r e) = ((q I (row (qiOf t) r) e : ℝ) : EReal) :=
  (qblk_apply m c t r e).trans (V_q m c I hH _ _)
theorem hablk (t : Fin cfg0.N) (r : Fin 1024) (j : Fin 256) :
    ablk m c t (ix2 r j) = ((I.adj (row (qiOf t) r) (col (kiOf t) j) : ℝ) : EReal) :=
  (ablk_apply m c t r j).trans (V_adj m c I hH _ _)
theorem hwblk (t : Fin cfg0.N) (d e : Fin 1024) :
    wblk m c t (ix2 d e) = ((I.Wm d e : ℝ) : EReal) :=
  (wblk_apply m c t d e).trans (V_wm m c I hH _ _)
theorem hbblk (t : Fin cfg0.N) (d : Fin 1024) :
    bblk m c t (ix2 (0 : Fin 1) d) = ((I.bm d : ℝ) : EReal) :=
  (bblk_apply m c t d).trans (V_bm m c I hH _)

/-- The state after every point, by induction on the point. -/
theorem good : ∀ (n : ℕ) (hn : n < cfg0.N), Good I m c n hn := by
  intro n
  induction n using Nat.strong_induction_on with
  | _ n ih =>
    intro hn
    have hN : cfg0.N = 256 := N_0
    by_cases h0 : n % 32 = 0
    · have h1 : ¬n % 32 = 31 := by omega
      have hki : kiOf ⟨n, hn⟩ = (0 : Fin 32) := Fin.ext h0
      obtain ⟨Mx, g1, g2, g3, g4, g5⟩ := step_first I (qiOf ⟨n, hn⟩) (qblk m c ⟨n, hn⟩) (kblk m c ⟨n, hn⟩) (vblk m c ⟨n, hn⟩)
        (ablk m c ⟨n, hn⟩) (hqblk I m c hH ⟨n, hn⟩) (fun j e => by rw [← hki]; exact hkblk I m c hH ⟨n, hn⟩ j e)
        (fun j e => by rw [← hki]; exact hvblk I m c hH ⟨n, hn⟩ j e) (fun r j => by rw [← hki]; exact hablk I m c hH ⟨n, hn⟩ r j)
      have e1 : 256 * ((0 : Fin 32).val + 1) = 256 * (n % 32 + 1) := by rw [h0]; rfl
      refine ⟨Mx, fun r => ?_, fun r => ?_, fun r e => ?_, fun r e => ?_, fun r e => ?_⟩
      · rw [A_m m c ⟨n, hn⟩ h0 h1]; exact g1 r
      · rw [A_l m c ⟨n, hn⟩ h0 h1, ← e1]; exact g2 r
      · rw [A_acc m c ⟨n, hn⟩ h0 h1, ← e1]; exact g3 r e
      · rw [A_qh m c ⟨n, hn⟩ h0 h1]; exact g4 r e
      · rw [A_ql m c ⟨n, hn⟩ h0 h1]; exact g5 r e
    · have hpos : 0 < n := Nat.pos_of_ne_zero (fun h => h0 (by rw [h]))
      have hn' : n - 1 < cfg0.N := by omega
      obtain ⟨Mp, p1, p2, p3, p4, p5⟩ := ih (n - 1) (by omega) hn'
      have hqi : qiOf ⟨n - 1, hn'⟩ = qiOf ⟨n, hn⟩ := Fin.ext (by show (n - 1) / 32 = n / 32; omega)
      have hcnt : 256 * ((n - 1) % 32 + 1) = 256 * (kiOf ⟨n, hn⟩).val := by show _ = 256 * (n % 32); omega
      rw [hqi] at p2 p3 p4
      rw [hcnt] at p2 p3
      obtain ⟨Mx, g1, g2, g3⟩ := step I (qiOf ⟨n, hn⟩) (kiOf ⟨n, hn⟩) (kblk m c ⟨n, hn⟩) (vblk m c ⟨n, hn⟩) (ablk m c ⟨n, hn⟩)
        (pm m c ⟨n, hn⟩) (pl m c ⟨n, hn⟩) (pacc m c ⟨n, hn⟩) (pqh m c ⟨n, hn⟩) (pql m c ⟨n, hn⟩)
        (hkblk I m c hH ⟨n, hn⟩) (hvblk I m c hH ⟨n, hn⟩) (hablk I m c hH ⟨n, hn⟩) p4 p5 Mp p1 p2 p3
      by_cases h1 : n % 32 = 31
      · refine ⟨Mx, fun r => ?_, fun r => ?_, fun r e => ?_, fun r e => ?_, fun r e => ?_⟩
        · rw [C_m m c ⟨n, hn⟩ h0 h1]; exact g1 r
        · rw [C_l m c ⟨n, hn⟩ h0 h1]; exact g2 r
        · rw [C_acc m c ⟨n, hn⟩ h0 h1]; exact g3 r e
        · rw [C_qh m c ⟨n, hn⟩ h0 h1]; exact p4 r e
        · rw [C_ql m c ⟨n, hn⟩ h0 h1]; exact p5 r e
      · refine ⟨Mx, fun r => ?_, fun r => ?_, fun r e => ?_, fun r e => ?_, fun r e => ?_⟩
        · rw [B_m m c ⟨n, hn⟩ h0 h1]; exact g1 r
        · rw [B_l m c ⟨n, hn⟩ h0 h1]; exact g2 r
        · rw [B_acc m c ⟨n, hn⟩ h0 h1]; exact g3 r e
        · rw [B_qh m c ⟨n, hn⟩ h0 h1]; exact p4 r e
        · rw [B_ql m c ⟨n, hn⟩ h0 h1]; exact p5 r e

end

end Cert.KernelIdeal.Inv

end
-- ==== Proof.KernelFinal.lean ====
import proofs.«415173_j7224134992243_3_alg».proof.Proof.KernelInvariant
import proofs.«415173_j7224134992243_3_alg».proof.Proof.Gen.KernelIdeal.Value
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! The result array after the run. A row tile's last point writes back its output tile, which holds the specification's
    result at the tile's rows; the eight written tiles cover the array, so the array ends holding the specification's
    result at every index. -/

namespace Cert.KernelIdeal.Final

open Cert.KernelIdeal Cert.KernelIdeal.Gen Cert.KernelIdeal.Blocks Cert.KernelIdeal.Cases Cert.KernelIdeal.Payload
open Cert.KernelIdeal.HostVals Cert.KernelIdeal.Inv Idealize.ShloMosaic.ValueIdx Cert.Spec

variable (I : Inputs) (m : (ℓ : Loc nD τ sig) → Buf (Elt Ideal) ℓ) (ρ : Dev nD → PrngReg) (c : Dev nD)

/-- The specification's result as an array of extended reals. -/
def G : S8192x1024.Idx → EReal := fun i => ((out I ⟨(i 0).val, idx2_lt0 i⟩ ⟨(i 1).val, idx2_lt1 i⟩ : ℝ) : EReal)

section
variable (hH : HoldsAt m c I)
include hH

/-- The output tile of a row tile's last point: the accumulator over the normaliser, projected. -/
theorem out_C (t : Fin cfg0.N) (h0 : ¬t.val % 32 = 0) (h1 : t.val % 32 = 31) (r d : Fin 1024) :
    ((outsAt0 m c t.val t.isLt).1 : S1024x1024.Idx → EReal) (ix2 r d) = ((out I (row (qiOf t) r) d : ℝ) : EReal) := by
  obtain ⟨Mx, g1, g2, g3, g4, g5⟩ := good I m c hH t.val t.isLt
  have e8 : 256 * (t.val % 32 + 1) = 8192 := by rw [h1]
  rw [e8] at g2 g3
  rw [C_l m c t h0 h1] at g2
  rw [C_acc m c t h0 h1] at g3
  rw [C_out m c t h0 h1]
  have hl0 : ∀ r, pre I (row (qiOf t) r) (Mx r) 8192 ≠ 0 := fun r => (pre_pos I _ _ 8192 (by norm_num)).ne'
  have hacc : ∀ r e, ((k0_pay2 (k0_pay13 (kblk m c t) (pqh m c t) (pql m c t) (ablk m c t) (pm m c t)) (k0_pay14 (kblk m c t) (pqh m c t) (pql m c t) (ablk m c t) (pm m c t)) (vblk m c t) (pacc m c t)) : S1024x1024.Idx → EReal) (ix2 r e) = ((preV I (row (qiOf t) r) e (Mx r) 8192 : ℝ) : EReal) := g3
  have hl : ∀ r, ((k0_pay1 (k0_pay13 (kblk m c t) (pqh m c t) (pql m c t) (ablk m c t) (pm m c t)) (k0_pay14 (kblk m c t) (pqh m c t) (pql m c t) (ablk m c t) (pm m c t)) (pl m c t)) : S1024x1.Idx → EReal) (ix2 r (0 : Fin 1)) = ((pre I (row (qiOf t) r) (Mx r) 8192 : ℝ) : EReal) := g2
  have key := pay4_apply (k0_pay2 (k0_pay13 (kblk m c t) (pqh m c t) (pql m c t) (ablk m c t) (pm m c t)) (k0_pay14 (kblk m c t) (pqh m c t) (pql m c t) (ablk m c t) (pm m c t)) (vblk m c t) (pacc m c t)) (k0_pay1 (k0_pay13 (kblk m c t) (pqh m c t) (pql m c t) (ablk m c t) (pm m c t)) (k0_pay14 (kblk m c t) (pqh m c t) (pql m c t) (ablk m c t) (pm m c t)) (pl m c t)) (wblk m c t) (bblk m c t)
    (fun r e => preV I (row (qiOf t) r) e (Mx r) 8192) (fun r => pre I (row (qiOf t) r) (Mx r) 8192)
    (fun d e => I.Wm d e) (fun d => I.bm d) hacc hl hl0 (hwblk I m c hH t) (hbblk I m c hH t) r d
  refine key.trans (congrArg (fun z : ℝ => (z : EReal)) ?_)
  show _ = ∑ e : Fin 1024, x I (row (qiOf t) r) e * I.Wm d e + I.bm d
  refine congrArg (fun z : ℝ => z + I.bm d) ?_
  exact Finset.sum_congr rfl fun e _ => by rw [x_of_pre]

/-- The tile a row tile's last point writes back is the specification's result read through the tile's rectangle. -/
theorem tile_eq (t : Fin cfg0.N) (h0 : ¬t.val % 32 = 0) (h1 : t.val % 32 = 31) (j : S1024x1024.Idx) :
    ((outsAt0 m c t.val t.isLt).1 : S1024x1024.Idx → EReal) j = G I (((cfg0.win 6).blk t).view.emb j) := by
  obtain ⟨r, d, rfl⟩ : ∃ (r d : Fin 1024), j = ix2 r d := ⟨j 0, j 1, eq_ix2 j⟩
  rw [out_C I m c hH t h0 h1 r d]
  unfold G
  have e0 : row (qiOf t) r = ⟨((((cfg0.win 6).blk t).view.emb (ix2 r d)) 0).val, idx2_lt0 _⟩ := by
    apply Fin.ext
    show 1024 * (t.val / 32) + r.val = win0_6.index t 0 * 1024 + 1 * r.val
    rw [(idx6 t).1]; omega
  have e1 : d = ⟨((((cfg0.win 6).blk t).view.emb (ix2 r d)) 1).val, idx2_lt1 _⟩ := by
    apply Fin.ext
    show d.val = win0_6.index t 1 * 1024 + 1 * d.val
    rw [(idx6 t).2]; omega
  rw [← e0, ← e1]

theorem flushed_eq (t : Fin cfg0.N) (hf : (cfg0.win 6).flush t = true) :
    (dats m 0 c).flushed 6 t = ((cfg0.win 6).blk t).view.read (Elt Ideal) (G I) := by
  have h1 : t.val % 32 = 31 := (flush0_6 t).mp hf
  have h0 : ¬t.val % 32 = 0 := by omega
  rw [Value.flushed6]
  funext j
  exact tile_eq I m c hH t h0 h1 j

end

/-- An index of the result array lies in a point's tile iff each coordinate lies in the tile's range on its axis. -/
theorem mem_blk (t : Fin cfg0.N) (i : S8192x1024.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v17).slice (win0_6.rect t)).set ↔ _
  rw [View.set_slice_whole, Rect.mem_set_unit]
  exact Iff.rfl

/-- Every index is in the tile of its row tile's last point. -/
theorem cover (i : S8192x1024.Idx) : ∃ t : Fin cfg0.N, (cfg0.win 6).flush t = true ∧ i ∈ ((cfg0.win 6).blk t).view.set := by
  have hi0 : (i 0).val < 8192 := idx2_lt0 i
  have hi1 : (i 1).val < 1024 := idx2_lt1 i
  have hN : cfg0.N = 256 := N_0
  have ht : 32 * ((i 0).val / 1024) + 31 < cfg0.N := by omega
  refine ⟨⟨32 * ((i 0).val / 1024) + 31, ht⟩, (flush0_6 _).mpr (by show (32 * ((i 0).val / 1024) + 31) % 32 = 31; omega), ?_⟩
  rw [mem_blk]
  intro a
  match a with
  | ⟨0, _⟩ =>
    show win0_6.index ⟨32 * ((i 0).val / 1024) + 31, ht⟩ 0 * 1024 ≤ (i 0).val
      ∧ (i 0).val < win0_6.index ⟨32 * ((i 0).val / 1024) + 31, ht⟩ 0 * 1024 + 1024
    rw [(idx6 _).1]
    show (32 * ((i 0).val / 1024) + 31) / 32 * 1024 ≤ (i 0).val ∧ (i 0).val < (32 * ((i 0).val / 1024) + 31) / 32 * 1024 + 1024
    omega
  | ⟨1, _⟩ =>
    show win0_6.index ⟨32 * ((i 0).val / 1024) + 31, ht⟩ 1 * 1024 ≤ (i 1).val
      ∧ (i 1).val < win0_6.index ⟨32 * ((i 0).val / 1024) + 31, ht⟩ 1 * 1024 + 1024
    rw [(idx6 _).2]
    omega

section
variable (hH : HoldsAt m c I)
include hH

/-- The result array after the run holds the specification's result. -/
theorem final : (dats m 0 c).arrAt 6 cfg0.N = G I :=
  (dats m 0 c).arrAt_eq_of_cover 6 (G I) (flushed_eq I m c hH) cover

end

/-- The run, read: on every device the result array at the specification's result of the device's argument arrays, the
    arguments unchanged. -/
theorem run (J : Dev nD → Inputs) (hH : ∀ c, HoldsAt m c (J c)) :
    θ_run defs (onTc (τ := τ) (main (F := Ideal))) ⟨m, fun _ => 0, ρ⟩ fun r => ∀ c : Dev nD,
      r.2.mem ((c : Thread nD τ).loc main_v17) = G (J c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final (J c) m c (hH c)), (h c).2⟩) (Value.run_blocks m ρ)

end Cert.KernelIdeal.Final

end
-- ==== Proof.RefValue.lean ====
import proofs.«415173_j7224134992243_3_alg».proof.Proof.Gen.ReferenceIdeal.Read
import proofs.«415173_j7224134992243_3_alg».proof.Proof.Holds
import proofs.«415173_j7224134992243_3_alg».proof.Proof.Consts
import proofs.«415173_j7224134992243_3_alg».proof.Proof.Lift
import proofs.«415173_j7224134992243_3_alg».proof.Proof.SoftmaxReal
import Idealize.ShloMosaic.Lib.ValueIdx
import Idealize.ShloMosaic.PureOps.Ideal.Laws
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! The reference's result, read at an index, for argument arrays that hold reals with a 0/1 adjacency: the
    specification's result. Its divisor is the reciprocal of the specification's scale; with a 0/1 adjacency entry the
    product `score · adj` under the threshold test is the specification's mask; the row maximum it subtracts is
    some real, and any real shift cancels in the normalised weights. -/

namespace Cert.ReferenceIdeal.RefValue

open Cert.ReferenceIdeal Cert.ReferenceIdeal.Gen Cert.ReferenceIdeal.Read Idealize.ShloMosaic.ValueIdx Cert.Spec

/-! ## The three projections -/

/-- An affine projection `y wᵀ + c` of arrays holding reals, read at `(n, e)`. -/
private theorem proj_apply (X : Fin 8192 → Fin 1024 → ℝ) (W : Fin 1024 → Fin 1024 → ℝ) (b : Fin 1024 → ℝ)
    (y : (⟨S8192x1024, .f32⟩ : BufTy).Contents (Elt Ideal)) (w : (⟨S1024x1024, .f32⟩ : BufTy).Contents (Elt Ideal))
    (c : (⟨S1024, .f32⟩ : BufTy).Contents (Elt Ideal))
    (hy : ∀ n d, y (ix2 n d) = ((X n d : ℝ) : EReal)) (hw : ∀ e d, w (ix2 e d) = ((W e d : ℝ) : EReal))
    (hc : ∀ e, c (ix1 e) = ((b e : ℝ) : EReal)) (n : Fin 8192) (e : Fin 1024) :
    val_main_v4 (F := Ideal) y w c (ix2 n e) = ((proj X W b n e : ℝ) : EReal) := by
  rw [val_main_v4_apply, val_main_v1_apply, val_main_v3_apply, val_main_v2_apply]
  have hl : ∀ j : Fin 1024, lidx_main_v1 (ix2 n e) j = ix2 n j := fun j =>
    funext fun a => Fin.ext (by match a with | ⟨0, _⟩ => rfl | ⟨1, _⟩ => rfl)
  have hr : ∀ j : Fin 1024, idx_main_v0 (ridx_main_v1 (ix2 n e) j) = ix2 e j := fun j =>
    funext fun a => Fin.ext (by match a with | ⟨0, _⟩ => rfl | ⟨1, _⟩ => rfl)
  have hb : idx_main_v2 (idx_main_v3 (ix2 n e)) = ix1 e :=
    funext fun a => Fin.ext (by match a with | ⟨0, _⟩ => rfl)
  have hs : ∑ j : Fin 1024, y (lidx_main_v1 (ix2 n e) j) * val_main_v0 (F := Ideal) w (ridx_main_v1 (ix2 n e) j)
      = ∑ j : Fin 1024, ((X n j : ℝ) : EReal) * ((W e j : ℝ) : EReal) :=
    Finset.sum_congr rfl fun j _ => by rw [val_main_v0_apply, hl, hr, hy, hw]
  rw [hs, hb, hc, Cert.Lift.sum_mul_coe]
  show _ + _ = _
  rw [← EReal.coe_add]
  rfl

private theorem q_apply (I : Inputs)
    (x0 x1 x2 : (⟨S8192x1024, .f32⟩ : BufTy).Contents (Elt Ideal)) (x3 : (⟨S8192x8192, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal))
    (x10 : (⟨S1024x1024, .f32⟩ : BufTy).Contents (Elt Ideal)) (x11 : (⟨S1024, .f32⟩ : BufTy).Contents (Elt Ideal))
    (hH : Holds I x0 x1 x2 x3 x4 x5 x6 x7 x8 x9 x10 x11) (n : Fin 8192) (e : Fin 1024) :
    val_main_v4 (F := Ideal) x0 x4 x5 (ix2 n e) = ((q I n e : ℝ) : EReal) :=
  proj_apply I.query I.Wq I.bq x0 x4 x5 hH.query hH.Wq hH.bq n e

private theorem k_apply (I : Inputs)
    (x0 x1 x2 : (⟨S8192x1024, .f32⟩ : BufTy).Contents (Elt Ideal)) (x3 : (⟨S8192x8192, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal))
    (x10 : (⟨S1024x1024, .f32⟩ : BufTy).Contents (Elt Ideal)) (x11 : (⟨S1024, .f32⟩ : BufTy).Contents (Elt Ideal))
    (hH : Holds I x0 x1 x2 x3 x4 x5 x6 x7 x8 x9 x10 x11) (n : Fin 8192) (e : Fin 1024) :
    val_main_v9 (F := Ideal) x1 x6 x7 (ix2 n e) = ((k I n e : ℝ) : EReal) :=
  proj_apply I.key I.Wk I.bk x1 x6 x7 hH.key hH.Wk hH.bk n e

private theorem v_apply (I : Inputs)
    (x0 x1 x2 : (⟨S8192x1024, .f32⟩ : BufTy).Contents (Elt Ideal)) (x3 : (⟨S8192x8192, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal))
    (x10 : (⟨S1024x1024, .f32⟩ : BufTy).Contents (Elt Ideal)) (x11 : (⟨S1024, .f32⟩ : BufTy).Contents (Elt Ideal))
    (hH : Holds I x0 x1 x2 x3 x4 x5 x6 x7 x8 x9 x10 x11) (n : Fin 8192) (e : Fin 1024) :
    val_main_v14 (F := Ideal) x2 x8 x9 (ix2 n e) = ((v I n e : ℝ) : EReal) :=
  proj_apply I.value I.Wv I.bv x2 x8 x9 hH.value hH.Wv hH.bv n e

/-! ## The scaled scores -/

private theorem score_apply (I : Inputs)
    (x0 x1 x2 : (⟨S8192x1024, .f32⟩ : BufTy).Contents (Elt Ideal)) (x3 : (⟨S8192x8192, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal))
    (x10 : (⟨S1024x1024, .f32⟩ : BufTy).Contents (Elt Ideal)) (x11 : (⟨S1024, .f32⟩ : BufTy).Contents (Elt Ideal))
    (hH : Holds I x0 x1 x2 x3 x4 x5 x6 x7 x8 x9 x10 x11) (n m : Fin 8192) :
    val_main_v17 (F := Ideal) x0 x1 x4 x5 x6 x7 (ix2 n m) = ((bscore (q I) (k I) n m : ℝ) : EReal) := by
  rw [val_main_v17_apply, val_main_v15_apply, val_main_v16_apply, val_main_cst_apply]
  have hl : ∀ j : Fin 1024, lidx_main_v15 (ix2 n m) j = ix2 n j := fun j =>
    funext fun a => Fin.ext (by match a with | ⟨0, _⟩ => rfl | ⟨1, _⟩ => rfl)
  have hr : ∀ j : Fin 1024, ridx_main_v15 (ix2 n m) j = ix2 m j := fun j =>
    funext fun a => Fin.ext (by match a with | ⟨0, _⟩ => rfl | ⟨1, _⟩ => rfl)
  have hs : ∑ j : Fin 1024, val_main_v4 (F := Ideal) x0 x4 x5 (lidx_main_v15 (ix2 n m) j) * val_main_v9 (F := Ideal) x1 x6 x7 (ridx_main_v15 (ix2 n m) j)
      = ∑ j : Fin 1024, ((q I n j : ℝ) : EReal) * ((k I m j : ℝ) : EReal) :=
    Finset.sum_congr rfl fun j _ => by
      rw [hl, hr, q_apply I x0 x1 x2 x3 x4 x5 x6 x7 x8 x9 x10 x11 hH, k_apply I x0 x1 x2 x3 x4 x5 x6 x7 x8 x9 x10 x11 hH]
  rw [hs, Cert.Lift.sum_mul_coe]
  show Ideal.div _ (Ideal.ofBits .f32 0x42B504F3#32) = _
  rw [Cert.Consts.ofBits_scale, Cert.Lift.div_coe_coe _ _ (by norm_num)]
  congr 1
  unfold bscore cInv
  ring

/-! ## The masked scores -/

/-- One masked score: with a 0/1 adjacency entry the threshold test on `score · adj` is the specification's mask. -/
private theorem mask_scalar (s a : ℝ) (ha : a = 0 ∨ a = 1) :
    Scalar.select (FloatOps.cmpf (F := Ideal) (φ := .f32) .olt
        (FloatOps.hostAbsf (F := Ideal) (φ := .f32) (FloatOps.mulf (F := Ideal) (φ := .f32) (s : EReal) (a : EReal)))
        (FloatOps.ofBits (F := Ideal) .f32 0x3727C5AC#32))
      (FloatOps.ofBits (F := Ideal) .f32 0xCE6E6B28#32) (FloatOps.mulf (F := Ideal) (φ := .f32) (s : EReal) (a : EReal))
    = ((if a ≠ 0 ∧ thr ≤ |s| then s else negBig : ℝ) : EReal) := by
  have hthr : (0 : ℝ) < thr := by unfold thr; norm_num
  show Scalar.select (Ideal.cmp .olt (max ((s : EReal) * (a : EReal)) (-((s : EReal) * (a : EReal)))) (Ideal.ofBits .f32 0x3727C5AC#32))
      (Ideal.ofBits .f32 0xCE6E6B28#32) ((s : EReal) * (a : EReal)) = _
  rw [Cert.Consts.ofBits_thr, Cert.Consts.ofBits_negBig]
  show Scalar.select (Ideal.cmp .olt (max ((s : EReal) * (a : EReal)) (-((s : EReal) * (a : EReal)))) ((thr : ℝ) : EReal))
      ((negBig : ℝ) : EReal) ((s : EReal) * (a : EReal)) = _
  rw [← EReal.coe_mul, ← EReal.coe_neg, Cert.Lift.max_coe, ← abs_eq_max_neg]
  have hc : Ideal.cmp .olt ((|s * a| : ℝ) : EReal) ((thr : ℝ) : EReal) = BitVec.ofBool (decide (|s * a| < thr)) := by
    show BitVec.ofBool (decide (_ < _)) = _
    simp only [EReal.coe_lt_coe_iff]
  rw [hc]
  rcases ha with h0 | h1
  · subst h0
    rw [mul_zero, abs_zero, decide_eq_true hthr, if_neg (fun h => h.1 rfl)]
    exact select_one _ _
  · subst h1
    rw [mul_one]
    by_cases hlt : |s| < thr
    · rw [decide_eq_true hlt, if_neg (fun h => absurd hlt (not_lt.mpr h.2))]
      exact select_one _ _
    · rw [decide_eq_false hlt, if_pos ⟨one_ne_zero, not_lt.mp hlt⟩]
      exact select_zero _ _

private theorem masked_apply (I : Inputs)
    (x0 x1 x2 : (⟨S8192x1024, .f32⟩ : BufTy).Contents (Elt Ideal)) (x3 : (⟨S8192x8192, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal))
    (x10 : (⟨S1024x1024, .f32⟩ : BufTy).Contents (Elt Ideal)) (x11 : (⟨S1024, .f32⟩ : BufTy).Contents (Elt Ideal))
    (hH : Holds I x0 x1 x2 x3 x4 x5 x6 x7 x8 x9 x10 x11) (n m : Fin 8192) :
    val_main_v22 (F := Ideal) x0 x1 x3 x4 x5 x6 x7 (ix2 n m) = ((masked I n m : ℝ) : EReal) := by
  rw [val_main_v22_apply, val_main_v21_apply, val_main_v19_apply, val_main_v18_apply, val_main_v20_apply, val_main_cst_0_apply,
    val_main_call0_v1_apply, val_main_call0_v0_apply, val_main_cst_1_apply, score_apply I x0 x1 x2 x3 x4 x5 x6 x7 x8 x9 x10 x11 hH, hH.adj]
  exact mask_scalar _ _ (hH.mask n m)

/-! ## The row maximum is some real -/

private theorem rowmax_real (I : Inputs)
    (x0 x1 x2 : (⟨S8192x1024, .f32⟩ : BufTy).Contents (Elt Ideal)) (x3 : (⟨S8192x8192, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal))
    (x10 : (⟨S1024x1024, .f32⟩ : BufTy).Contents (Elt Ideal)) (x11 : (⟨S1024, .f32⟩ : BufTy).Contents (Elt Ideal))
    (hH : Holds I x0 x1 x2 x3 x4 x5 x6 x7 x8 x9 x10 x11) (n : Fin 8192) :
    ∃ M : ℝ, val_main_v25 (F := Ideal) x0 x1 x3 x4 x5 x6 x7 (ix1 n) = ((M : ℝ) : EReal) := by
  have h : S8192x8192.Reduces [1] S8192 := by decide
  have hf : (val_main_v22 (F := Ideal) x0 x1 x3 x4 x5 x6 x7 ∘ h.lift (ix1 n)) = fun j : Fin 8192 => ((masked I n j : ℝ) : EReal) := by
    funext j
    have hj : h.lift (ix1 n) j = ix2 n (⟨j.val, j.isLt⟩ : Fin 8192) := by
      funext c; apply Fin.ext; fin_cases c <;> rfl
    show val_main_v22 (F := Ideal) x0 x1 x3 x4 x5 x6 x7 (h.lift (ix1 n) j) = _
    rw [hj]
    exact masked_apply I x0 x1 x2 x3 x4 x5 x6 x7 x8 x9 x10 x11 hH n ⟨j.val, j.isLt⟩
  have e : val_main_v23 (F := Ideal) x0 x1 x3 x4 x5 x6 x7 (ix1 n)
      = (Finset.univ : Finset (Fin 8192)).fold max (⊥ : EReal) (fun j => ((masked I n j : ℝ) : EReal)) := by
    unfold val_main_v23
    refine (Host.reduce_eq_fold_single FloatOps.maximumf _ _ reducesTo_S8192x8192_S8192_d1 h h_S_ (ix1 n)).trans ?_
    rw [hf]
    show Finset.fold max (Ideal.ofBits .f32 0xFF800000#32) _ _ = _
    rw [Cert.Consts.ofBits_negInf]
    rfl
  have e25 : val_main_v25 (F := Ideal) x0 x1 x3 x4 x5 x6 x7 (ix1 n)
      = (Finset.univ : Finset (Fin 8192)).fold max (⊥ : EReal) (fun j => ((masked I n j : ℝ) : EReal)) := by
    rw [val_main_v25_apply, val_main_v24_apply, val_main_cst_3_apply, e]
    show max (Ideal.ofBits .f32 0xFF800000#32) _ = _
    rw [Cert.Consts.ofBits_negInf]
    exact max_eq_right bot_le
  refine ⟨_, e25.trans (Cert.Lift.eq_coe_toReal ?_ ?_)⟩
  · exact Cert.Lift.fold_max_ne_top ⊥ (by simp) _
  · exact Cert.Lift.fold_max_ne_bot (by norm_num) ⊥ _

/-! ## The shifted exponentials, the normaliser, the weights -/

private theorem shift_apply (I : Inputs)
    (x0 x1 x2 : (⟨S8192x1024, .f32⟩ : BufTy).Contents (Elt Ideal)) (x3 : (⟨S8192x8192, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal))
    (x10 : (⟨S1024x1024, .f32⟩ : BufTy).Contents (Elt Ideal)) (x11 : (⟨S1024, .f32⟩ : BufTy).Contents (Elt Ideal))
    (hH : Holds I x0 x1 x2 x3 x4 x5 x6 x7 x8 x9 x10 x11) (n m : Fin 8192) (M : ℝ)
    (hM : val_main_v25 (F := Ideal) x0 x1 x3 x4 x5 x6 x7 (ix1 n) = ((M : ℝ) : EReal)) :
    val_main_v27 (F := Ideal) x0 x1 x3 x4 x5 x6 x7 (ix2 n m) = ((M : ℝ) : EReal) := by
  rw [val_main_v27_apply, val_main_v26_apply]
  have hi : idx_main_v26 (idx_main_v27 (ix2 n m)) = ix1 n :=
    funext fun a => Fin.ext (by match a with | ⟨0, _⟩ => rfl)
  rw [hi, hM]

private theorem exp_apply (I : Inputs)
    (x0 x1 x2 : (⟨S8192x1024, .f32⟩ : BufTy).Contents (Elt Ideal)) (x3 : (⟨S8192x8192, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal))
    (x10 : (⟨S1024x1024, .f32⟩ : BufTy).Contents (Elt Ideal)) (x11 : (⟨S1024, .f32⟩ : BufTy).Contents (Elt Ideal))
    (hH : Holds I x0 x1 x2 x3 x4 x5 x6 x7 x8 x9 x10 x11) (n m : Fin 8192) (M : ℝ)
    (hM : val_main_v25 (F := Ideal) x0 x1 x3 x4 x5 x6 x7 (ix1 n) = ((M : ℝ) : EReal)) :
    val_main_v29 (F := Ideal) x0 x1 x3 x4 x5 x6 x7 (ix2 n m) = ((Real.exp (masked I n m - M) : ℝ) : EReal) := by
  rw [val_main_v29_apply, val_main_v28_apply, masked_apply I x0 x1 x2 x3 x4 x5 x6 x7 x8 x9 x10 x11 hH, shift_apply I x0 x1 x2 x3 x4 x5 x6 x7 x8 x9 x10 x11 hH n m M hM]
  show Ideal.exp (((masked I n m : ℝ) : EReal) - ((M : ℝ) : EReal)) = _
  rw [← EReal.coe_sub, Cert.Lift.exp_coe]

private theorem norm_apply (I : Inputs)
    (x0 x1 x2 : (⟨S8192x1024, .f32⟩ : BufTy).Contents (Elt Ideal)) (x3 : (⟨S8192x8192, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal))
    (x10 : (⟨S1024x1024, .f32⟩ : BufTy).Contents (Elt Ideal)) (x11 : (⟨S1024, .f32⟩ : BufTy).Contents (Elt Ideal))
    (hH : Holds I x0 x1 x2 x3 x4 x5 x6 x7 x8 x9 x10 x11) (n : Fin 8192) (M : ℝ)
    (hM : val_main_v25 (F := Ideal) x0 x1 x3 x4 x5 x6 x7 (ix1 n) = ((M : ℝ) : EReal)) :
    val_main_v30 (F := Ideal) x0 x1 x3 x4 x5 x6 x7 (ix1 n) = ((∑ i : Fin 8192, Real.exp (masked I n i - M) : ℝ) : EReal) := by
  rw [val_main_v30_apply, val_main_cst_4_apply]
  have hi : ∀ j : Fin 8192, idx_main_v30 (ix1 n) j = ix2 n j := fun j =>
    funext fun a => Fin.ext (by match a with | ⟨0, _⟩ => rfl | ⟨1, _⟩ => rfl)
  have hs : ∑ j : Fin 8192, val_main_v29 (F := Ideal) x0 x1 x3 x4 x5 x6 x7 (idx_main_v30 (ix1 n) j)
      = ∑ j : Fin 8192, ((Real.exp (masked I n j - M) : ℝ) : EReal) :=
    Finset.sum_congr rfl fun j _ => by rw [hi, exp_apply I x0 x1 x2 x3 x4 x5 x6 x7 x8 x9 x10 x11 hH n j M hM]
  rw [hs, ← Cert.Lift.coe_sum]
  show Ideal.ofBits .f32 0x00000000#32 + _ = _
  rw [Cert.Consts.ofBits_zero, zero_add]

private theorem weight_apply (I : Inputs)
    (x0 x1 x2 : (⟨S8192x1024, .f32⟩ : BufTy).Contents (Elt Ideal)) (x3 : (⟨S8192x8192, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal))
    (x10 : (⟨S1024x1024, .f32⟩ : BufTy).Contents (Elt Ideal)) (x11 : (⟨S1024, .f32⟩ : BufTy).Contents (Elt Ideal))
    (hH : Holds I x0 x1 x2 x3 x4 x5 x6 x7 x8 x9 x10 x11) (n m : Fin 8192) (M : ℝ)
    (hM : val_main_v25 (F := Ideal) x0 x1 x3 x4 x5 x6 x7 (ix1 n) = ((M : ℝ) : EReal)) :
    val_main_v33 (F := Ideal) x0 x1 x3 x4 x5 x6 x7 (ix2 n m)
      = ((Real.exp (masked I n m - M) / (∑ i : Fin 8192, Real.exp (masked I n i - M)) : ℝ) : EReal) := by
  rw [val_main_v33_apply, val_main_v32_apply, val_main_v31_apply, exp_apply I x0 x1 x2 x3 x4 x5 x6 x7 x8 x9 x10 x11 hH n m M hM]
  have hi : idx_main_v31 (idx_main_v32 (ix2 n m)) = ix1 n :=
    funext fun a => Fin.ext (by match a with | ⟨0, _⟩ => rfl)
  rw [hi, norm_apply I x0 x1 x2 x3 x4 x5 x6 x7 x8 x9 x10 x11 hH n M hM]
  have hpos : (0 : ℝ) < ∑ i : Fin 8192, Real.exp (masked I n i - M) :=
    Finset.sum_pos (fun i _ => Real.exp_pos _) ⟨n, Finset.mem_univ _⟩
  exact Cert.Lift.div_coe_coe _ _ hpos.ne'

/-! ## The attention output and the last projection -/

private theorem x_apply (I : Inputs)
    (x0 x1 x2 : (⟨S8192x1024, .f32⟩ : BufTy).Contents (Elt Ideal)) (x3 : (⟨S8192x8192, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal))
    (x10 : (⟨S1024x1024, .f32⟩ : BufTy).Contents (Elt Ideal)) (x11 : (⟨S1024, .f32⟩ : BufTy).Contents (Elt Ideal))
    (hH : Holds I x0 x1 x2 x3 x4 x5 x6 x7 x8 x9 x10 x11) (n : Fin 8192) (e : Fin 1024) :
    val_main_v34 (F := Ideal) x0 x1 x2 x3 x4 x5 x6 x7 x8 x9 (ix2 n e) = ((x I n e : ℝ) : EReal) := by
  obtain ⟨M, hM⟩ := rowmax_real I x0 x1 x2 x3 x4 x5 x6 x7 x8 x9 x10 x11 hH n
  rw [val_main_v34_apply]
  have hl : ∀ j : Fin 8192, lidx_main_v34 (ix2 n e) j = ix2 n j := fun j =>
    funext fun a => Fin.ext (by match a with | ⟨0, _⟩ => rfl | ⟨1, _⟩ => rfl)
  have hr : ∀ j : Fin 8192, ridx_main_v34 (ix2 n e) j = ix2 j e := fun j =>
    funext fun a => Fin.ext (by match a with | ⟨0, _⟩ => rfl | ⟨1, _⟩ => rfl)
  have hs : ∑ j : Fin 8192, val_main_v33 (F := Ideal) x0 x1 x3 x4 x5 x6 x7 (lidx_main_v34 (ix2 n e) j) * val_main_v14 (F := Ideal) x2 x8 x9 (ridx_main_v34 (ix2 n e) j)
      = ∑ j : Fin 8192, ((Real.exp (masked I n j - M) / (∑ i : Fin 8192, Real.exp (masked I n i - M)) : ℝ) : EReal) * ((v I j e : ℝ) : EReal) :=
    Finset.sum_congr rfl fun j _ => by
      rw [hl, hr, weight_apply I x0 x1 x2 x3 x4 x5 x6 x7 x8 x9 x10 x11 hH n j M hM, v_apply I x0 x1 x2 x3 x4 x5 x6 x7 x8 x9 x10 x11 hH]
  rw [hs, Cert.Lift.sum_mul_coe, x_of_normalized I n e M]

theorem out_apply (I : Inputs)
    (x0 x1 x2 : (⟨S8192x1024, .f32⟩ : BufTy).Contents (Elt Ideal)) (x3 : (⟨S8192x8192, .f32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal))
    (x10 : (⟨S1024x1024, .f32⟩ : BufTy).Contents (Elt Ideal)) (x11 : (⟨S1024, .f32⟩ : BufTy).Contents (Elt Ideal))
    (hH : Holds I x0 x1 x2 x3 x4 x5 x6 x7 x8 x9 x10 x11) (n : Fin 8192) (d : Fin 1024) :
    val_main_v39 (F := Ideal) x0 x1 x2 x3 x4 x5 x6 x7 x8 x9 x10 x11 (ix2 n d) = ((out I n d : ℝ) : EReal) :=
  proj_apply (x I) I.Wm I.bm (val_main_v34 (F := Ideal) x0 x1 x2 x3 x4 x5 x6 x7 x8 x9) x10 x11
    (x_apply I x0 x1 x2 x3 x4 x5 x6 x7 x8 x9 x10 x11 hH) hH.Wm hH.bm n d

end Cert.ReferenceIdeal.RefValue

end
-- ==== Proof.PreFacts.lean ====
import proofs.«415173_j7224134992243_3_alg».proof.Pre_finite_inputs
import proofs.«415173_j7224134992243_3_alg».proof.Proof.Gen.Pre_finite_inputs
import proofs.«415173_j7224134992243_3_alg».proof.Proof.Holds
import proofs.«415173_j7224134992243_3_alg».proof.Proof.Consts
import proofs.«415173_j7224134992243_3_alg».proof.Proof.Lift
import Idealize.ShloMosaic.Lib.ValueIdx
import Idealize.ShloMosaic.Lib.ReduceAll
import Idealize.ShloMosaic.PureOps.Ideal.Laws
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

/-! The precondition read: where it is all ones, every entry of every argument array is a real (its magnitude is below
    `+∞`), and every adjacency entry is 0 or 1; so the arrays hold the real arrays of their entries' real parts. -/

namespace Cert.PreFacts

open Cert.Pre_finite_inputs Idealize.ShloMosaic.ValueIdx Cert.Spec

/-- The scalar shape has one index. -/
private instance subsingleton_scalar_idx : Subsingleton S_.Idx := ⟨fun a b => funext fun d => d.elim0⟩

/-- A strict comparison of extended reals that answers 1 holds. -/
private theorem lt_of_cmp_olt {a b : EReal} (h : Ideal.cmp .olt a b = 1#1) : a < b := by
  by_contra hc
  have e : Ideal.cmp .olt a b = 0#1 := by simp [Ideal.cmp, hc]
  rw [e] at h
  exact absurd h (by decide)

/-- An equality test of extended reals that answers 1 holds. -/
private theorem eq_of_cmp_oeq {a b : EReal} (h : Ideal.cmp .oeq a b = 1#1) : a = b := by
  by_contra hc
  have e : Ideal.cmp .oeq a b = 0#1 := by simp [Ideal.cmp, hc]
  rw [e] at h
  exact absurd h (by decide)

/-- A magnitude `max x (-x)` below `+∞` is that of a real: `x` is neither infinity. -/
private theorem ne_top_bot_of_abs_lt {x : EReal} (h : max x (-x) < ⊤) : x ≠ ⊤ ∧ x ≠ ⊥ := by
  rw [max_lt_iff] at h
  refine ⟨h.1.ne, fun hx => ?_⟩
  rw [hx, EReal.neg_bot] at h
  exact absurd h.2 (lt_irrefl _)

/-- An array whose finiteness test `all (|x| < +∞)` is 1 has every entry neither infinity. -/
private theorem finite_of_all {s : Shape} {axes : List (Fin s.rank)} (x : FVec Ideal s .f32)
    (hb : S_.BroadcastsInDim s (![] : Fin 0 → Fin s.rank)) (hr : s.ReducesTo axes S_) (h0 : 0 < S_.numel)
    (h : Host.reduce IntOp.andi
        (cmpf .olt (Host.absf x) (broadcastInDim s ![] hb (constant (F := Ideal) S_ .f32 0x7F800000#32)))
        (constantI S_ 1 1#1) hr h0 ix0 = 1#1) (i : s.Idx) : x i ≠ ⊤ ∧ x i ≠ ⊥ := by
  have e := Host.reduce_andi_all _ _ hr h0 ix0 h i
  have e' : Ideal.cmp .olt (max (x i) (-(x i))) (Ideal.ofBits .f32 0x7F800000#32) = 1#1 := e
  rw [Cert.Consts.ofBits_posInf] at e'
  exact ne_top_bot_of_abs_lt (lt_of_cmp_olt e')

/-- An array whose test `all ((x == 0) | (x == 1))` is 1 has every entry 0 or 1. -/
private theorem zero_or_one_of_all {s : Shape} {axes : List (Fin s.rank)} (x : FVec Ideal s .f32)
    (hb : S_.BroadcastsInDim s (![] : Fin 0 → Fin s.rank)) (hr : s.ReducesTo axes S_) (h0 : 0 < S_.numel)
    (h : Host.reduce IntOp.andi
        (ori (cmpf .oeq x (broadcastInDim s ![] hb (constant (F := Ideal) S_ .f32 0x00000000#32)))
          (cmpf .oeq x (broadcastInDim s ![] hb (constant (F := Ideal) S_ .f32 0x3F800000#32))))
        (constantI S_ 1 1#1) hr h0 ix0 = 1#1) (i : s.Idx) : x i = 0 ∨ x i = ((1 : ℝ) : EReal) := by
  have e := Host.reduce_andi_all _ _ hr h0 ix0 h i
  rcases IntOp.ori_eq_one.1 e with e0 | e1
  · have e' : Ideal.cmp .oeq (x i) (Ideal.ofBits .f32 0x00000000#32) = 1#1 := e0
    rw [Cert.Consts.ofBits_zero] at e'
    exact Or.inl (eq_of_cmp_oeq e')
  · have e' : Ideal.cmp .oeq (x i) (Ideal.ofBits .f32 0x3F800000#32) = 1#1 := e1
    rw [Cert.Consts.ofBits_one] at e'
    exact Or.inr (eq_of_cmp_oeq e')

theorem exists_holds [Cert.Pre_finite_inputs.Facts]
    (x0 x1 x2 : FVec Ideal S8192x1024 .f32) (x3 : FVec Ideal S8192x8192 .f32)
    (x4 : FVec Ideal S1024x1024 .f32) (x5 : FVec Ideal S1024 .f32) (x6 : FVec Ideal S1024x1024 .f32) (x7 : FVec Ideal S1024 .f32)
    (x8 : FVec Ideal S1024x1024 .f32) (x9 : FVec Ideal S1024 .f32) (x10 : FVec Ideal S1024x1024 .f32) (x11 : FVec Ideal S1024 .f32)
    (h : Cert.Pre_finite_inputs.fn (F := Ideal) x0 x1 x2 x3 x4 x5 x6 x7 x8 x9 x10 x11 = fun _ => 1#1) :
    ∃ I : Inputs, Holds I x0 x1 x2 x3 x4 x5 x6 x7 x8 x9 x10 x11 := by
  have h := congrFun h ix0
  dsimp only [fn, fn_part1, fn_part2, fn_part3] at h
  -- the thirteen conjuncts, last first
  obtain ⟨h, hm⟩ := IntOp.andi_eq_one.1 h
  obtain ⟨h, h11⟩ := IntOp.andi_eq_one.1 h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  -- every entry of every array is a real
  have f0 := finite_of_all x0 _ _ _ h0
  have f1 := finite_of_all x1 _ _ _ h1
  have f2 := finite_of_all x2 _ _ _ h2
  have f3 := finite_of_all x3 _ _ _ h3
  have f4 := finite_of_all x4 _ _ _ h4
  have f5 := finite_of_all x5 _ _ _ h5
  have f6 := finite_of_all x6 _ _ _ h6
  have f7 := finite_of_all x7 _ _ _ h7
  have f8 := finite_of_all x8 _ _ _ h8
  have f9 := finite_of_all x9 _ _ _ h9
  have f10 := finite_of_all x10 _ _ _ h10
  have f11 := finite_of_all x11 _ _ _ h11
  -- every adjacency entry is 0 or 1
  have fm := zero_or_one_of_all x3 _ _ _ hm
  refine ⟨{ query := fun n d => (x0 (ix2 n d)).toReal, key := fun n d => (x1 (ix2 n d)).toReal,
            value := fun n d => (x2 (ix2 n d)).toReal, adj := fun n m => (x3 (ix2 n m)).toReal,
            Wq := fun e d => (x4 (ix2 e d)).toReal, bq := fun e => (x5 (ix1 e)).toReal,
            Wk := fun e d => (x6 (ix2 e d)).toReal, bk := fun e => (x7 (ix1 e)).toReal,
            Wv := fun e d => (x8 (ix2 e d)).toReal, bv := fun e => (x9 (ix1 e)).toReal,
            Wm := fun e d => (x10 (ix2 e d)).toReal, bm := fun e => (x11 (ix1 e)).toReal }, ?_⟩
  refine
    { query := fun n d => Cert.Lift.eq_coe_toReal (f0 _).1 (f0 _).2
      key := fun n d => Cert.Lift.eq_coe_toReal (f1 _).1 (f1 _).2
      value := fun n d => Cert.Lift.eq_coe_toReal (f2 _).1 (f2 _).2
      adj := fun n m => Cert.Lift.eq_coe_toReal (f3 _).1 (f3 _).2
      Wq := fun e d => Cert.Lift.eq_coe_toReal (f4 _).1 (f4 _).2
      bq := fun e => Cert.Lift.eq_coe_toReal (f5 _).1 (f5 _).2
      Wk := fun e d => Cert.Lift.eq_coe_toReal (f6 _).1 (f6 _).2
      bk := fun e => Cert.Lift.eq_coe_toReal (f7 _).1 (f7 _).2
      Wv := fun e d => Cert.Lift.eq_coe_toReal (f8 _).1 (f8 _).2
      bv := fun e => Cert.Lift.eq_coe_toReal (f9 _).1 (f9 _).2
      Wm := fun e d => Cert.Lift.eq_coe_toReal (f10 _).1 (f10 _).2
      bm := fun e => Cert.Lift.eq_coe_toReal (f11 _).1 (f11 _).2
      mask := fun n m => ?_ }
  show (x3 (ix2 n m)).toReal = 0 ∨ (x3 (ix2 n m)).toReal = 1
  rcases fm (ix2 n m) with e | e
  · exact Or.inl (by rw [e, EReal.toReal_zero])
  · exact Or.inr (by rw [e, EReal.toReal_coe])

end Cert.PreFacts

end
-- ==== Proof.lean ====
/-
  The five claims. The three frames: the kernel's and its idealization's are the generated frame runs; the reference's is
  its generated run with the result dropped. The idealization is sanctioned: four bf16 round trips removed and the
  scale constant named the reciprocal of the reference's divisor. The equivalence over the extended reals: under the
  precondition the argument arrays hold reals and the adjacency array is a 0/1 mask; the kernel's result array ends
  holding the specification's result — the softmax of the masked, scaled scores q·kᵀ accumulated column tile by column
  tile with a running shift that cancels, times v, projected — and the reference's result, read operation by
  operation, is the same function of arguments that agree.
-/
import proofs.«415173_j7224134992243_3_alg».proof.Defs
import proofs.«415173_j7224134992243_3_alg».proof.Proof.Gen.Kernel
import proofs.«415173_j7224134992243_3_alg».proof.Proof.Gen.Kernel.Frame
import proofs.«415173_j7224134992243_3_alg».proof.Proof.Gen.KernelIdeal
import proofs.«415173_j7224134992243_3_alg».proof.Proof.Gen.KernelIdeal.Frame
import proofs.«415173_j7224134992243_3_alg».proof.Proof.Gen.ReferenceIdeal
import proofs.«415173_j7224134992243_3_alg».proof.Proof.Gen.ReferenceIdeal.Run
import proofs.«415173_j7224134992243_3_alg».proof.Proof.Gen.Pre_finite_inputs
import proofs.«415173_j7224134992243_3_alg».proof.Proof.KernelFinal
import proofs.«415173_j7224134992243_3_alg».proof.Proof.RefValue
import proofs.«415173_j7224134992243_3_alg».proof.Proof.PreFacts
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ledger's five entries: the round trips through bf16 are the identity on extended reals, and the table gives the
    scale constant the value 131072 / 11863283. -/
theorem preserves : Cert.preserves_Kernel_KernelIdeal :=
  ⟨IdealRules.truncf_extf.statement _ .f32 .bf16, IdealRules.truncf_extf.statement _ .f32 .bf16,
    IdealRules.named_const.statement Cert.KernelIdeal.κ "inv_scale" .f32 0x3C3504F3#32 ((131072 / 11863283 : ℝ) : EReal) rfl,
    IdealRules.truncf_extf.statement _ .f32 .bf16, IdealRules.truncf_extf.statement _ .f32 .bf16⟩

/-- Both programs end with the specification's result of the real arrays the arguments hold. -/
theorem algebraic : Cert.algebraic_KernelIdeal_ReferenceIdeal := by
  intro m ρ m' ρ' hpre hagree
  have hex : ∀ c : Dev Cert.KernelIdeal.nD, ∃ I : Cert.Spec.Inputs, Cert.KernelIdeal.HostVals.HoldsAt m c I :=
    fun c => Cert.PreFacts.exists_holds _ _ _ _ _ _ _ _ _ _ _ _ (hpre c)
  choose J hJ using hex
  refine ⟨fun c => Cert.KernelIdeal.Final.G (J c), Cert.KernelIdeal.Final.run m ρ J hJ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq]
  obtain ⟨a0, a1, a2, a3, a4, a5, a6, a7, a8, a9, a10, a11⟩ := hagree c
  rw [a0, a1, a2, a3, a4, a5, a6, a7, a8, a9, a10, a11]
  funext i
  obtain ⟨n, d, rfl⟩ : ∃ (n : Fin 8192) (d : Fin 1024), i = ix2 n d := ⟨i 0, i 1, eq_ix2 i⟩
  exact Cert.ReferenceIdeal.RefValue.out_apply (J c) _ _ _ _ _ _ _ _ _ _ _ _ (hJ c) n d

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
